-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x32 : Shape := ⟨2, ![800000, 32]⟩
abbrev S800000 : Shape := ⟨1, ![800000]⟩
abbrev S160x160 : Shape := ⟨2, ![160, 160]⟩
abbrev S160 : Shape := ⟨1, ![160]⟩
abbrev S224x224 : Shape := ⟨2, ![224, 224]⟩
abbrev S224 : Shape := ⟨1, ![224]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S160x160 : S_.BroadcastsInDim S160x160 (![] : Fin 0 → Fin S160x160.rank)
  reducesTo_S160x160_S_d0_1 : S160x160.ReducesTo [0, 1] S_
  bcast_S_S160 : S_.BroadcastsInDim S160 (![] : Fin 0 → Fin S160.rank)
  reducesTo_S160_S_d0 : S160.ReducesTo [0] S_
  bcast_S_S224x224 : S_.BroadcastsInDim S224x224 (![] : Fin 0 → Fin S224x224.rank)
  reducesTo_S224x224_S_d0_1 : S224x224.ReducesTo [0, 1] S_
  bcast_S_S224 : S_.BroadcastsInDim S224 (![] : Fin 0 → Fin S224.rank)
  reducesTo_S224_S_d0 : S224.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_v28 : IVec S_ 1) (main_v33 : IVec S800000 1) : IVec S_ 1 :=
  let main_c_12 : IVec S_ 1 := constantI S_ 1 1#1
  let main_v34 : IVec S_ 1 := (fun x v => Host.reduce IntOp.andi x v reducesTo_S800000_S_d0 h_S_) main_v33 main_c_12
  let main_v35 : IVec S_ 1 := andi main_v28 main_v34
  main_v35

def fn_part1 {F : FTy → Type} [FloatOps F] (main_arg2 : IVec S800000 32) (main_arg6 : FVec F S224x224 .f32) (main_arg7 : FVec F S224 .f32) (main_v13 : IVec S_ 1) (main_v16 : IVec S160 1) : IVec S_ 1 :=
  let main_c_5 : IVec S_ 1 := constantI S_ 1 1#1
  let main_v17 : IVec S_ 1 := (fun x v => Host.reduce IntOp.andi x v reducesTo_S160_S_d0 h_S_) main_v16 main_c_5
  let main_v18 : IVec S_ 1 := andi main_v13 main_v17
  let main_v19 : FVec F S224x224 .f32 := Host.absf main_arg6
  let main_cst_6 : FVec F S_ .f32 := constant S_ .f32 0x7F800000#32
  let main_v20 : FVec F S224x224 .f32 := broadcastInDim S224x224 ![] bcast_S_S224x224 main_cst_6
  let main_v21 : IVec S224x224 1 := cmpf .olt main_v19 main_v20
  let main_c_7 : IVec S_ 1 := constantI S_ 1 1#1
  let main_v22 : IVec S_ 1 := (fun x v => Host.reduce IntOp.andi x v reducesTo_S224x224_S_d0_1 h_S_) main_v21 main_c_7
  let main_v23 : IVec S_ 1 := andi main_v18 main_v22
  let main_v24 : FVec F S224 .f32 := Host.absf main_arg7
  let main_cst_8 : FVec F S_ .f32 := constant S_ .f32 0x7F800000#32
  let main_v25 : FVec F S224 .f32 := broadcastInDim S224 ![] bcast_S_S224 main_cst_8
  let main_v26 : IVec S224 1 := cmpf .olt main_v24 main_v25
  let main_c_9 : IVec S_ 1 := constantI S_ 1 1#1
  let main_v27 : IVec S_ 1 := (fun x v => Host.reduce IntOp.andi x v reducesTo_S224_S_d0 h_S_) main_v26 main_c_9
  let main_v28 : IVec S_ 1 := andi main_v23 main_v27
  let main_c_10 : IVec S_ 32 := constantI S_ 32 4294917296#32
  let main_v29 : IVec S800000 32 := broadcastInDim S800000 ![] bcast_S_S800000 main_c_10
  let main_v30 : IVec S800000 1 := cmpi .sge main_arg2 main_v29
  let main_c_11 : IVec S_ 32 := constantI S_ 32 50000#32
  let main_v31 : IVec S800000 32 := broadcastInDim S800000 ![] bcast_S_S800000 main_c_11
  let main_v32 : IVec S800000 1 := cmpi .slt main_arg2 main_v31
  let main_v33 : IVec S800000 1 := andi main_v30 main_v32
  fn_part2 (F := F) main_v28 main_v33

def fn {F : FTy → Type} [FloatOps F] (main_arg0 : FVec F S50000x64 .f32) (main_arg1 : FVec F S800000x32 .f32) (main_arg2 : IVec S800000 32) (main_arg3 : IVec S800000 32) (main_arg4 : FVec F S160x160 .f32) (main_arg5 : FVec F S160 .f32) (main_arg6 : FVec F S224x224 .f32) (main_arg7 : FVec F S224 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S160x160 .f32 := Host.absf main_arg4
  let main_cst_2 : FVec F S_ .f32 := constant S_ .f32 0x7F800000#32
  let main_v10 : FVec F S160x160 .f32 := broadcastInDim S160x160 ![] bcast_S_S160x160 main_cst_2
  let main_v11 : IVec S160x160 1 := cmpf .olt main_v9 main_v10
  let main_c_3 : IVec S_ 1 := constantI S_ 1 1#1
  let main_v12 : IVec S_ 1 := (fun x v => Host.reduce IntOp.andi x v reducesTo_S160x160_S_d0_1 h_S_) main_v11 main_c_3
  let main_v13 : IVec S_ 1 := andi main_v8 main_v12
  let main_v14 : FVec F S160 .f32 := Host.absf main_arg5
  let main_cst_4 : FVec F S_ .f32 := constant S_ .f32 0x7F800000#32
  let main_v15 : FVec F S160 .f32 := broadcastInDim S160 ![] bcast_S_S160 main_cst_4
  let main_v16 : IVec S160 1 := cmpf .olt main_v14 main_v15
  fn_part1 (F := F) main_arg2 main_arg6 main_arg7 main_v13 main_v16
-- ==== Kernel.lean ====
abbrev S50000x64 : Shape := ⟨2, ![50000, 64]⟩
abbrev S800000x32 : Shape := ⟨2, ![800000, 32]⟩
abbrev S800000 : Shape := ⟨1, ![800000]⟩
abbrev S160x160 : Shape := ⟨2, ![160, 160]⟩
abbrev S160 : Shape := ⟨1, ![160]⟩
abbrev S224x224 : Shape := ⟨2, ![224, 224]⟩
abbrev S224 : Shape := ⟨1, ![224]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S64x160 : Shape := ⟨2, ![64, 160]⟩
abbrev S32x160 : Shape := ⟨2, ![32, 160]⟩
abbrev S800000x160 : Shape := ⟨2, ![800000, 160]⟩
abbrev S10000x64 : Shape := ⟨2, ![10000, 64]⟩
abbrev S10000x32 : Shape := ⟨2, ![10000, 32]⟩
abbrev S10000x160 : Shape := ⟨2, ![10000, 160]⟩
abbrev S1x160 : Shape := ⟨2, ![1, 160]⟩
abbrev S50000x160 : Shape := ⟨2, ![50000, 160]⟩
abbrev S160x224 : Shape := ⟨2, ![160, 224]⟩
abbrev S64x224 : Shape := ⟨2, ![64, 224]⟩
abbrev S50000x224 : Shape := ⟨2, ![50000, 224]⟩
abbrev S10000x224 : Shape := ⟨2, ![10000, 224]⟩
abbrev S1x224 : Shape := ⟨2, ![1, 224]⟩

abbrev nBuf : Space → Nat
  | .hbm => 67
  | .vmem => 21
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S800000, .i32⟩
  | .hbm, ⟨3, _⟩ => ⟨S800000, .i32⟩
  | .hbm, ⟨4, _⟩ => ⟨S160x160, .f32⟩
  | .hbm, ⟨5, _⟩ => ⟨S160, .f32⟩
  | .hbm, ⟨6, _⟩ => ⟨S224x224, .f32⟩
  | .hbm, ⟨7, _⟩ => ⟨S224, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S1, .i32⟩
  | .hbm, ⟨17, _⟩ => ⟨S_, .i32⟩
  | .hbm, ⟨18, _⟩ => ⟨S800000x1, .i32⟩
  | .hbm, ⟨19, _⟩ => ⟨S800000x1, .i1⟩
  | .hbm, ⟨20, _⟩ => ⟨S1x1, .i32⟩
  | .hbm, ⟨21, _⟩ => ⟨S800000x1, .i32⟩
  | .hbm, ⟨22, _⟩ => ⟨S800000x1, .i1⟩
  | .hbm, ⟨23, _⟩ => ⟨S800000x1, .i1⟩
  | .hbm, ⟨24, _⟩ => ⟨S_, .i1⟩
  | .hbm, ⟨25, _⟩ => ⟨S800000, .i1⟩
  | .hbm, ⟨26, _⟩ => ⟨S800000x64, .f32⟩
  | .hbm, ⟨27, _⟩ => ⟨S800000x64, .i1⟩
  | .hbm, ⟨28, _⟩ => ⟨S_, .f32⟩
  | .hbm, ⟨29, _⟩ => ⟨S800000x64, .f32⟩
  | .hbm, ⟨30, _⟩ => ⟨S800000x64, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S1, .i32⟩
  | .hbm, ⟨40, _⟩ => ⟨S_, .i32⟩
  | .hbm, ⟨41, _⟩ => ⟨S800000x1, .i32⟩
  | .hbm, ⟨42, _⟩ => ⟨S800000x1, .i1⟩
  | .hbm, ⟨43, _⟩ => ⟨S1x1, .i32⟩
  | .hbm, ⟨44, _⟩ => ⟨S800000x1, .i32⟩
  | .hbm, ⟨45, _⟩ => ⟨S800000x1, .i1⟩
  | .hbm, ⟨46, _⟩ => ⟨S800000x1, .i1⟩
  | .hbm, ⟨47, _⟩ => ⟨S_, .i1⟩
  | .hbm, ⟨48, _⟩ => ⟨S800000, .i1⟩
  | .hbm, ⟨49, _⟩ => ⟨S800000x64, .f32⟩
  | .hbm, ⟨50, _⟩ => ⟨S800000x64, .i1⟩
  | .hbm, ⟨51, _⟩ => ⟨S_, .f32⟩
  | .hbm, ⟨52, _⟩ => ⟨S800000x64, .f32⟩
  | .hbm, ⟨53, _⟩ => ⟨S800000x64, .f32⟩
  | .hbm, ⟨54, _⟩ => ⟨S160x160, .f32⟩
  | .hbm, ⟨55, _⟩ => ⟨S64x160, .f32⟩
  | .hbm, ⟨56, _⟩ => ⟨S64x160, .f32⟩
  | .hbm, ⟨57, _⟩ => ⟨S32x160, .f32⟩
  | .hbm, ⟨58, _⟩ => ⟨S800000x160, .f32⟩
  | .hbm, ⟨59, _⟩ => ⟨S_, .f32⟩
  | .hbm, ⟨60, _⟩ => ⟨S50000x160, .f32⟩
  | .hbm, ⟨61, _⟩ => ⟨S800000x1, .i32⟩
  | .hbm, ⟨62, _⟩ => ⟨S50000x160, .f32⟩
  | .hbm, ⟨63, _⟩ => ⟨S224x224, .f32⟩
  | .hbm, ⟨64, _⟩ => ⟨S160x224, .f32⟩
  | .hbm, ⟨65, _⟩ => ⟨S64x224, .f32⟩
  | .hbm, ⟨66, _⟩ => ⟨S50000x224, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x32, .f32⟩
  | .local _ .vmem, ⟨5, _⟩ => ⟨S10000x32, .f32⟩
  | .local _ .vmem, ⟨6, _⟩ => ⟨S64x160, .f32⟩
  | .local _ .vmem, ⟨7, _⟩ => ⟨S64x160, .f32⟩
  | .local _ .vmem, ⟨8, _⟩ => ⟨S32x160, .f32⟩
  | .local _ .vmem, ⟨9, _⟩ => ⟨S160, .f32⟩
  | .local _ .vmem, ⟨10, _⟩ => ⟨S10000x160, .f32⟩
  | .local _ .vmem, ⟨11, _⟩ => ⟨S10000x160, .f32⟩
  | .local _ .vmem, ⟨12, _⟩ => ⟨S10000x160, .f32⟩
  | .local _ .vmem, ⟨13, _⟩ => ⟨S10000x160, .f32⟩
  | .local _ .vmem, ⟨14, _⟩ => ⟨S10000x64, .f32⟩
  | .local _ .vmem, ⟨15, _⟩ => ⟨S10000x64, .f32⟩
  | .local _ .vmem, ⟨16, _⟩ => ⟨S160x224, .f32⟩
  | .local _ .vmem, ⟨17, _⟩ => ⟨S64x224, .f32⟩
  | .local _ .vmem, ⟨18, _⟩ => ⟨S224, .f32⟩
  | .local _ .vmem, ⟨19, _⟩ => ⟨S10000x224, .f32⟩
  | .local _ .vmem, ⟨20, _⟩ => ⟨S10000x224, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_cst : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x160 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S160x224 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x224 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S224 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x224 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  transposes_S160x160_S160x160_1_0 : S160x160.Transposes [1, 0] S160x160
  slices_S160x160_S64x160_0_0 : S160x160.Slices ![0, 0] S64x160
  slices_S160x160_S64x160_64_0 : S160x160.Slices ![64, 0] S64x160
  slices_S160x160_S32x160_128_0 : S160x160.Slices ![128, 0] S32x160
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x160_S64x160_0_0 : ∀ a, (![0, 0] : Fin 2 → Nat) a + S64x160.size a ≤ S64x160.size a
  h_S64x160 : 0 < S64x160.numel
  shapeCasts_S64x160_S64x160 : S64x160.ShapeCasts S64x160
  inb_S10000x32_S10000x32_0_0 : ∀ a, (![0, 0] : Fin 2 → Nat) a + S10000x32.size a ≤ S10000x32.size a
  h_S10000x32 : 0 < S10000x32.numel
  inb_S32x160_S32x160_0_0 : ∀ a, (![0, 0] : Fin 2 → Nat) a + S32x160.size a ≤ S32x160.size a
  h_S32x160 : 0 < S32x160.numel
  shapeCasts_S32x160_S32x160 : S32x160.ShapeCasts S32x160
  inb_S160_S160_0 : ∀ a, (![0] : Fin 1 → Nat) a + S160.size a ≤ S160.size a
  h_S160 : 0 < S160.numel
  shapeCasts_S160_S1x160 : S160.ShapeCasts S1x160
  broadcasts_S1x160_S10000x160 : S1x160.Broadcasts S10000x160
  inb_S10000x160_S10000x160_0_0 : ∀ a, (![0, 0] : Fin 2 → Nat) a + S10000x160.size a ≤ S10000x160.size a
  h_S10000x160 : 0 < S10000x160.numel
  bcast_S_S50000x160 : S_.BroadcastsInDim S50000x160 (![] : Fin 0 → Fin S50000x160.rank)
  transposes_S224x224_S224x224_1_0 : S224x224.Transposes [1, 0] S224x224
  slices_S224x224_S160x224_0_0 : S224x224.Slices ![0, 0] S160x224
  slices_S224x224_S64x224_160_0 : S224x224.Slices ![160, 0] S64x224
  shapeCasts_S10000x160_S10000x160 : S10000x160.ShapeCasts S10000x160
  inb_S160x224_S160x224_0_0 : ∀ a, (![0, 0] : Fin 2 → Nat) a + S160x224.size a ≤ S160x224.size a
  h_S160x224 : 0 < S160x224.numel
  shapeCasts_S160x224_S160x224 : S160x224.ShapeCasts S160x224
  inb_S64x224_S64x224_0_0 : ∀ a, (![0, 0] : Fin 2 → Nat) a + S64x224.size a ≤ S64x224.size a
  h_S64x224 : 0 < S64x224.numel
  shapeCasts_S64x224_S64x224 : S64x224.ShapeCasts S64x224
  inb_S224_S224_0 : ∀ a, (![0] : Fin 1 → Nat) a + S224.size a ≤ S224.size a
  h_S224 : 0 < S224.numel
  shapeCasts_S224_S1x224 : S224.ShapeCasts S1x224
  broadcasts_S1x224_S10000x224 : S1x224.Broadcasts S10000x224
  inb_S10000x224_S10000x224_0_0 : ∀ a, (![0, 0] : Fin 2 → Nat) a + S10000x224.size a ≤ S10000x224.size a
  h_S10000x224 : 0 < S10000x224.numel
  gather_S50000x64_S800000x1_S800000x64_1_0_n_n_0_1_164_wf : GatherDims.WF S50000x64 S800000x1 S800000x64 [1] [0] [] [0] [] 1 ![1, 64]
  dot_S10000x64_S64x160_S10000x160_1_0_0_1_n_n_wf : DotDims.WF S10000x64 S64x160 S10000x160 [1] [0] [0] [1] [] []
  dot_S10000x32_S32x160_S10000x160_1_0_0_1_n_n_wf : DotDims.WF S10000x32 S32x160 S10000x160 [1] [0] [0] [1] [] []
  scatter_S50000x160_S800000x1_S800000x160_1_0_0_1_wf : ScatterDims.WF S50000x160 S800000x1 S800000x160 [1] [0] [0] 1
  dot_S10000x160_S160x224_S10000x224_1_0_0_1_n_n_wf : DotDims.WF S10000x160 S160x224 S10000x224 [1] [0] [0] [1] [] []
  dot_S10000x64_S64x224_S10000x224_1_0_0_1_n_n_wf : DotDims.WF S10000x64 S64x224 S10000x224 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S800000x64.size a
  hwx0_0 : ∀ i : grid0.Coords, EltTy.bits .f32 = 32 ∨ (Rect.block (s := S800000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S800000x64.size a
  hwx0_1 : ∀ i : grid0.Coords, EltTy.bits .f32 = 32 ∨ (Rect.block (s := S800000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S800000x32.size a
  hwx0_2 : ∀ i : grid0.Coords, EltTy.bits .f32 = 32 ∨ (Rect.block (s := S800000x32) S10000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x160.size a ≤ S64x160.size a
  hwx0_3 : ∀ i : grid0.Coords, EltTy.bits .f32 = 32 ∨ (Rect.block (s := S64x160) S64x160.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x160.size a ≤ S64x160.size a
  hwx0_4 : ∀ i : grid0.Coords, EltTy.bits .f32 = 32 ∨ (Rect.block (s := S64x160) S64x160.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x160.size a ≤ S32x160.size a
  hwx0_5 : ∀ i : grid0.Coords, EltTy.bits .f32 = 32 ∨ (Rect.block (s := S32x160) S32x160.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S160.size a ≤ S160.size a
  hwx0_6 : ∀ i : grid0.Coords, EltTy.bits .f32 = 32 ∨ (Rect.block (s := S160) S160.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x160.size a ≤ S800000x160.size a
  hwx0_7 : ∀ i : grid0.Coords, EltTy.bits .f32 = 32 ∨ (Rect.block (s := S800000x160) S10000x160.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x160.size a ≤ S50000x160.size a
  hwx1_0 : ∀ i : grid1.Coords, EltTy.bits .f32 = 32 ∨ (Rect.block (s := S50000x160) S10000x160.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S160x224.size a ≤ S160x224.size a
  hwx1_2 : ∀ i : grid1.Coords, EltTy.bits .f32 = 32 ∨ (Rect.block (s := S160x224) S160x224.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x224.size a ≤ S64x224.size a
  hwx1_3 : ∀ i : grid1.Coords, EltTy.bits .f32 = 32 ∨ (Rect.block (s := S64x224) S64x224.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S224.size a ≤ S224.size a
  hwx1_4 : ∀ i : grid1.Coords, EltTy.bits .f32 = 32 ∨ (Rect.block (s := S224) S224.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x224.size a ≤ S50000x224.size a
  hwx1_5 : ∀ i : grid1.Coords, EltTy.bits .f32 = 32 ∨ (Rect.block (s := S50000x224) S10000x224.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S10000x64_S64x160_S10000x160_1_0_0_1_n_n : DotDims S10000x64 S64x160 S10000x160 where
  lhsContracting := [1]
  rhsContracting := [0]
  lhsNonContracting := [0]
  rhsNonContracting := [1]
  lhsBatch := []
  rhsBatch := []
  wf := dot_S10000x64_S64x160_S10000x160_1_0_0_1_n_n_wf
def dot_S10000x32_S32x160_S10000x160_1_0_0_1_n_n : DotDims S10000x32 S32x160 S10000x160 where
  lhsContracting := [1]
  rhsContracting := [0]
  lhsNonContracting := [0]
  rhsNonContracting := [1]
  lhsBatch := []
  rhsBatch := []
  wf := dot_S10000x32_S32x160_S10000x160_1_0_0_1_n_n_wf
def scatter_S50000x160_S800000x1_S800000x160_1_0_0_1 : ScatterDims S50000x160 S800000x1 S800000x160 where
  updateWindowDims := [1]
  insertedWindowDims := [0]
  scatterDimsToOperandDims := [0]
  indexVectorDim := 1
  wf := scatter_S50000x160_S800000x1_S800000x160_1_0_0_1_wf
def dot_S10000x160_S160x224_S10000x224_1_0_0_1_n_n : DotDims S10000x160 S160x224 S10000x224 where
  lhsContracting := [1]
  rhsContracting := [0]
  lhsNonContracting := [0]
  rhsNonContracting := [1]
  lhsBatch := []
  rhsBatch := []
  wf := dot_S10000x160_S160x224_S10000x224_1_0_0_1_n_n_wf
def dot_S10000x64_S64x224_S10000x224_1_0_0_1_n_n : DotDims S10000x64 S64x224 S10000x224 where
  lhsContracting := [1]
  rhsContracting := [0]
  lhsNonContracting := [0]
  rhsNonContracting := [1]
  lhsBatch := []
  rhsBatch := []
  wf := dot_S10000x64_S64x224_S10000x224_1_0_0_1_n_n_wf

abbrev win0_0 : Pipeline.Window sig grid0 :=
  Pipeline.Window.ofSpec (Memref.whole main_v0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S10000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S32x160.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S160.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S10000x160.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v9) S10000x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S160x224.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S64x224.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S224.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S10000x224.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x32 : Shape := ⟨2, ![800000, 32]⟩
abbrev S800000 : Shape := ⟨1, ![800000]⟩
abbrev S160x160 : Shape := ⟨2, ![160, 160]⟩
abbrev S160 : Shape := ⟨1, ![160]⟩
abbrev S224x224 : Shape := ⟨2, ![224, 224]⟩
abbrev S224 : Shape := ⟨1, ![224]⟩
abbrev S_ : Shape := ⟨0, ![]⟩
abbrev S800000x1 : Shape := ⟨2, ![800000, 1]⟩
abbrev S800000x64 : Shape := ⟨2, ![800000, 64]⟩
abbrev S800000x160 : Shape := ⟨2, ![800000, 160]⟩
abbrev S1x160 : Shape := ⟨2, ![1, 160]⟩
abbrev S50000x160 : Shape := ⟨2, ![50000, 160]⟩
abbrev S50000x224 : Shape := ⟨2, ![50000, 224]⟩
abbrev S1x224 : Shape := ⟨2, ![1, 224]⟩

abbrev nBuf : Space → Nat
  | .hbm => 58
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S800000, .i32⟩
  | .hbm, ⟨3, _⟩ => ⟨S800000, .i32⟩
  | .hbm, ⟨4, _⟩ => ⟨S160x160, .f32⟩
  | .hbm, ⟨5, _⟩ => ⟨S160, .f32⟩
  | .hbm, ⟨6, _⟩ => ⟨S224x224, .f32⟩
  | .hbm, ⟨7, _⟩ => ⟨S224, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S800000x160, .f32⟩
  | .hbm, ⟨27, _⟩ => ⟨S160x160, .f32⟩
  | .hbm, ⟨28, _⟩ => ⟨S800000x160, .f32⟩
  | .hbm, ⟨29, _⟩ => ⟨S1x160, .f32⟩
  | .hbm, ⟨30, _⟩ => ⟨S800000x160, .f32⟩
  | .hbm, ⟨31, _⟩ => ⟨S800000x160, .f32⟩
  | .hbm, ⟨32, _⟩ => ⟨S_, .f32⟩
  | .hbm, ⟨33, _⟩ => ⟨S_, .f32⟩
  | .hbm, ⟨34, _⟩ => ⟨S800000x160, .f32⟩
  | .hbm, ⟨35, _⟩ => ⟨S800000x160, .i1⟩
  | .hbm, ⟨36, _⟩ => ⟨S_, .f32⟩
  | .hbm, ⟨37, _⟩ => ⟨S800000x160, .f32⟩
  | .hbm, ⟨38, _⟩ => ⟨S800000x160, .f32⟩
  | .hbm, ⟨39, _⟩ => ⟨S800000x160, .f32⟩
  | .hbm, ⟨40, _⟩ => ⟨S_, .f32⟩
  | .hbm, ⟨41, _⟩ => ⟨S50000x160, .f32⟩
  | .hbm, ⟨42, _⟩ => ⟨S800000x1, .i32⟩
  | .hbm, ⟨43, _⟩ => ⟨S50000x160, .f32⟩
  | .hbm, ⟨44, _⟩ => ⟨S50000x224, .f32⟩
  | .hbm, ⟨45, _⟩ => ⟨S224x224, .f32⟩
  | .hbm, ⟨46, _⟩ => ⟨S50000x224, .f32⟩
  | .hbm, ⟨47, _⟩ => ⟨S1x224, .f32⟩
  | .hbm, ⟨48, _⟩ => ⟨S50000x224, .f32⟩
  | .hbm, ⟨49, _⟩ => ⟨S50000x224, .f32⟩
  | .hbm, ⟨50, _⟩ => ⟨S_, .f32⟩
  | .hbm, ⟨51, _⟩ => ⟨S_, .f32⟩
  | .hbm, ⟨52, _⟩ => ⟨S50000x224, .f32⟩
  | .hbm, ⟨53, _⟩ => ⟨S50000x224, .i1⟩
  | .hbm, ⟨54, _⟩ => ⟨S_, .f32⟩
  | .hbm, ⟨55, _⟩ => ⟨S50000x224, .f32⟩
  | .hbm, ⟨56, _⟩ => ⟨S50000x224, .f32⟩
  | .hbm, ⟨57, _⟩ => ⟨S50000x224, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v30 : Ref sig .tc := ⟨.hbm, 57, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x32_S800000x160_d1 : Shape.Concatenates [S800000x64, S800000x64, S800000x32] S800000x160 1
  transposes_S160x160_S160x160_1_0 : S160x160.Transposes [1, 0] S160x160
  bcast_S160_S1x160_1 : S160.BroadcastsInDim S1x160 (![1] : Fin 1 → Fin S1x160.rank)
  bcast_S1x160_S800000x160_0_1 : S1x160.BroadcastsInDim S800000x160 (![0, 1] : Fin 2 → Fin S800000x160.rank)
  bcast_S_S800000x160 : S_.BroadcastsInDim S800000x160 (![] : Fin 0 → Fin S800000x160.rank)
  bcast_S_S50000x160 : S_.BroadcastsInDim S50000x160 (![] : Fin 0 → Fin S50000x160.rank)
  concatenates_S50000x160_S50000x64_S50000x224_d1 : Shape.Concatenates [S50000x160, S50000x64] S50000x224 1
  transposes_S224x224_S224x224_1_0 : S224x224.Transposes [1, 0] S224x224
  bcast_S224_S1x224_1 : S224.BroadcastsInDim S1x224 (![1] : Fin 1 → Fin S1x224.rank)
  bcast_S1x224_S50000x224_0_1 : S1x224.BroadcastsInDim S50000x224 (![0, 1] : Fin 2 → Fin S50000x224.rank)
  bcast_S_S50000x224 : S_.BroadcastsInDim S50000x224 (![] : Fin 0 → Fin S50000x224.rank)
  gather_S50000x64_S800000x1_S800000x64_1_0_n_n_0_1_164_wf : GatherDims.WF S50000x64 S800000x1 S800000x64 [1] [0] [] [0] [] 1 ![1, 64]
  dot_S800000x160_S160x160_S800000x160_1_0_0_1_n_n_wf : DotDims.WF S800000x160 S160x160 S800000x160 [1] [0] [0] [1] [] []
  scatter_S50000x160_S800000x1_S800000x160_1_0_0_1_wf : ScatterDims.WF S50000x160 S800000x1 S800000x160 [1] [0] [0] 1
  dot_S50000x224_S224x224_S50000x224_1_0_0_1_n_n_wf : DotDims.WF S50000x224 S224x224 S50000x224 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x160_S160x160_S800000x160_1_0_0_1_n_n : DotDims S800000x160 S160x160 S800000x160 where
  lhsContracting := [1]
  rhsContracting := [0]
  lhsNonContracting := [0]
  rhsNonContracting := [1]
  lhsBatch := []
  rhsBatch := []
  wf := dot_S800000x160_S160x160_S800000x160_1_0_0_1_n_n_wf
def scatter_S50000x160_S800000x1_S800000x160_1_0_0_1 : ScatterDims S50000x160 S800000x1 S800000x160 where
  updateWindowDims := [1]
  insertedWindowDims := [0]
  scatterDimsToOperandDims := [0]
  indexVectorDim := 1
  wf := scatter_S50000x160_S800000x1_S800000x160_1_0_0_1_wf
def dot_S50000x224_S224x224_S50000x224_1_0_0_1_n_n : DotDims S50000x224 S224x224 S50000x224 where
  lhsContracting := [1]
  rhsContracting := [0]
  lhsNonContracting := [0]
  rhsNonContracting := [1]
  lhsBatch := []
  rhsBatch := []
  wf := dot_S50000x224_S224x224_S50000x224_1_0_0_1_n_n_wf

class Facts : Prop extends Facts₀ where

variable [Facts]
-- ==== Proof.Spec.lean ====
/-
  The message-passing layer as mathematics, over the extended reals and over literal extents: 50000 nodes with 64
  features, 800000 edges with 32 features, a message of 160 = 64 + 64 + 32 entries and a hidden state of 224 = 160 + 64.

  One edge's message is leaky(x . W_msg^T + b_msg) of x = [h_n[src] | h_n[dst] | h_e]; the messages are summed into
  their destination nodes; a node's output is leaky(y . W_hid^T + b_hid) of y = [sum of its messages | h_n].
  The tiled program computes each product as a sum of the products of the pieces against the matching ROW BLOCKS of
  the transposed weight (`msgOf`, `outOf`), and reads a node row through a take that FILLS an out-of-range row with
  the junk value (`takeFill`); the plain program multiplies the concatenation whole (`msgR`, `outR`) and reads a node row
  clamped (`takeClamp`). The two takes agree exactly where the normalised index is in range (`inRange`).
-/
import Idealize.ShloMosaic.PureOps.Ideal
import Idealize.ShloMosaic.Lib.ValueIdx

noncomputable section

open scoped BigOperators

namespace Cert.Mpnn

open Idealize.ShloMosaic Idealize.ShloMosaic.ValueIdx

/-- An n-by-m matrix of extended reals. -/
abbrev Mat (n m : Nat) : Type := (⟨2, ![n, m]⟩ : Shape).Idx → EReal
/-- A vector of n extended reals. -/
abbrev Row (n : Nat) : Type := (⟨1, ![n]⟩ : Shape).Idx → EReal
/-- A vector of n 32-bit index words. -/
abbrev Ids (n : Nat) : Type := (⟨1, ![n]⟩ : Shape).Idx → BitVec 32

/-- leaky_relu with the slope's f32 word: x where x ≥ 0, slope · x elsewhere. -/
def leaky (x : EReal) : EReal :=
  Scalar.select (Ideal.cmp .oge x (Ideal.ofBits .f32 0x00000000#32)) x (Ideal.ofBits .f32 0x3C23D70A#32 * x)

/-! ## Node indices -/

/-- A negative index counts from the end: w + 50000 where w < 0 (signed), w elsewhere. -/
def normIdx (w : BitVec 32) : BitVec 32 := Scalar.select (IntOp.cmpi .slt w 0#32) (IntOp.addi w 50000#32) w

/-- The normalised index names a node. -/
def inRange (w : BitVec 32) : Prop := 0 ≤ (normIdx w).toInt ∧ (normIdx w).toInt ≤ 49999

instance (w : BitVec 32) : Decidable (inRange w) := by unfold inRange; infer_instance

/-- The node row a gather reads at index word w: the normalised index read signed and clamped into [0, 49999]. -/
def gRow (w : BitVec 32) : Fin 50000 := ⟨min (normIdx w).toInt.toNat 49999, by omega⟩

/-- The domain on which `h_n[src]` indexes in range: -50000 ≤ w < 50000 (signed). -/
def srcOk (w : BitVec 32) : Prop := -50000 ≤ w.toInt ∧ w.toInt < 50000

/-- The take that fills: row `gRow` of the table where the index is in range, the junk value ⊥ elsewhere. -/
def takeFill (hn : Mat 50000 64) (ids : Ids 800000) : Mat 800000 64 :=
  fun i => if inRange (ids (ix1 (i 0))) then hn (ix2 (gRow (ids (ix1 (i 0)))) (i 1)) else ⊥

/-- The take that clamps: row `gRow` of the table, always. -/
def takeClamp (hn : Mat 50000 64) (ids : Ids 800000) : Mat 800000 64 :=
  fun i => hn (ix2 (gRow (ids (ix1 (i 0)))) (i 1))

/-! ## Row blocks of a transposed weight -/

/-- Rows 0..63 of W_msg^T: entry (k, j) is W_msg[j, k]. -/
def wA (W : Mat 160 160) : Mat 64 160 := fun i => W (ix2 (i 1) ⟨(i 0).val, by have := idx2_lt0 i; omega⟩)
/-- Rows 64..127 of W_msg^T. -/
def wB (W : Mat 160 160) : Mat 64 160 := fun i => W (ix2 (i 1) ⟨(i 0).val + 64, by have := idx2_lt0 i; omega⟩)
/-- Rows 128..159 of W_msg^T. -/
def wC (W : Mat 160 160) : Mat 32 160 := fun i => W (ix2 (i 1) ⟨(i 0).val + 128, by have := idx2_lt0 i; omega⟩)
/-- Rows 0..159 of W_hid^T. -/
def wD (W : Mat 224 224) : Mat 160 224 := fun i => W (ix2 (i 1) ⟨(i 0).val, by have := idx2_lt0 i; omega⟩)
/-- Rows 160..223 of W_hid^T. -/
def wE (W : Mat 224 224) : Mat 64 224 := fun i => W (ix2 (i 1) ⟨(i 0).val + 160, by have := idx2_lt0 i; omega⟩)

/-! ## The two products, piece by piece -/

/-- The edge stage over its seven arrays: leaky(((gs . wa + gd . wb) + he . wc) + b), entry by entry. -/
def msgOf (gs gd : Mat 800000 64) (he : Mat 800000 32) (wa wb : Mat 64 160) (wc : Mat 32 160) (b : Row 160) : Mat 800000 160 :=
  fun i => leaky ((((∑ k : Fin 64, gs (ix2 (i 0) k) * wa (ix2 k (i 1))) + (∑ k : Fin 64, gd (ix2 (i 0) k) * wb (ix2 k (i 1))))
    + (∑ k : Fin 32, he (ix2 (i 0) k) * wc (ix2 k (i 1)))) + b (ix1 (i 1)))

/-- The node stage over its five arrays: leaky((ms . wd + hn . we) + b), entry by entry. -/
def outOf (ms : Mat 50000 160) (hn : Mat 50000 64) (wd : Mat 160 224) (we : Mat 64 224) (b : Row 224) : Mat 50000 224 :=
  fun i => leaky (((∑ k : Fin 160, ms (ix2 (i 0) k) * wd (ix2 k (i 1))) + (∑ k : Fin 64, hn (ix2 (i 0) k) * we (ix2 k (i 1))))
    + b (ix1 (i 1)))

/-! ## The sum of the messages into their destination nodes -/

/-- The scatter's dimension numbers: update row e, whole, lands on operand row idx[e, 0]. -/
def scat : ScatterDims ⟨2, ![50000, 160]⟩ ⟨2, ![800000, 1]⟩ ⟨2, ![800000, 160]⟩ where
  updateWindowDims := [1]
  insertedWindowDims := [0]
  scatterDimsToOperandDims := [0]
  indexVectorDim := 1
  wf := by decide

/-- Node n's entry k: the sum of entry k of the messages whose raw destination word is n (an edge whose word names no
    node adds nothing). -/
def segSum (dst : Ids 800000) (msg : Mat 800000 160) : Mat 50000 160 :=
  Ideal.hostScatterAdd scat (fun _ => Ideal.ofBits .f32 0x00000000#32) (fun i => dst (ix1 (i 0))) msg

/-! ## The two programs' results -/

/-- The tiled program's messages. -/
def msgK (hn : Mat 50000 64) (he : Mat 800000 32) (src dst : Ids 800000) (Wm : Mat 160 160) (bm : Row 160) : Mat 800000 160 :=
  msgOf (takeFill hn src) (takeFill hn dst) he (wA Wm) (wB Wm) (wC Wm) bm

/-- The tiled program's result. -/
def outK (hn : Mat 50000 64) (he : Mat 800000 32) (src dst : Ids 800000) (Wm : Mat 160 160) (bm : Row 160)
    (Wh : Mat 224 224) (bh : Row 224) : Mat 50000 224 :=
  outOf (segSum dst (msgK hn he src dst Wm bm)) hn (wD Wh) (wE Wh) bh

/-- [a | b | c] along the second axis. -/
def cat3 (a b : Mat 800000 64) (c : Mat 800000 32) : Mat 800000 160 := fun i =>
  if h : (i 1).val < 64 then a (ix2 (i 0) ⟨(i 1).val, h⟩)
  else if h' : (i 1).val < 128 then b (ix2 (i 0) ⟨(i 1).val - 64, by omega⟩)
  else c (ix2 (i 0) ⟨(i 1).val - 128, by have := idx2_lt1 i; omega⟩)

/-- [a | b] along the second axis. -/
def cat2 (a : Mat 50000 160) (b : Mat 50000 64) : Mat 50000 224 := fun i =>
  if h : (i 1).val < 160 then a (ix2 (i 0) ⟨(i 1).val, h⟩)
  else b (ix2 (i 0) ⟨(i 1).val - 160, by have := idx2_lt1 i; omega⟩)

/-- The plain program's messages: leaky([h_n[src] | h_n[dst] | h_e] . W_msg^T + b_msg). -/
def msgR (hn : Mat 50000 64) (he : Mat 800000 32) (src dst : Ids 800000) (Wm : Mat 160 160) (bm : Row 160) : Mat 800000 160 :=
  fun i => leaky ((∑ k : Fin 160, cat3 (takeClamp hn src) (takeClamp hn dst) he (ix2 (i 0) k) * Wm (ix2 (i 1) k)) + bm (ix1 (i 1)))

/-- The plain program's result: leaky([sum of messages | h_n] . W_hid^T + b_hid). -/
def outR (hn : Mat 50000 64) (he : Mat 800000 32) (src dst : Ids 800000) (Wm : Mat 160 160) (bm : Row 160)
    (Wh : Mat 224 224) (bh : Row 224) : Mat 50000 224 :=
  fun i => leaky ((∑ k : Fin 224, cat2 (segSum dst (msgR hn he src dst Wm bm)) hn (ix2 (i 0) k) * Wh (ix2 (i 1) k)) + bh (ix1 (i 1)))

end Cert.Mpnn

end
-- ==== Proof.Region0.lean ====
/-
  The edge stage's array after its eighty tiles: tile t holds rows 10000 t .. 10000 t + 9999 of ONE function of the seven
  arrays the stage reads, so the tiles together are that function on every edge.
-/
import proofs.«417945_j39470749450525_2_alg».proof.Proof.Gen.KernelIdeal.Frame
import proofs.«417945_j39470749450525_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Cert.Mpnn
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The two products at an entry

A tile's product of a 10000-row block with a weight block contracts the block's columns with the weight's rows: at
entry (p, q) the left factor is read at (p, k), the right factor at (k, q), and k runs over the one contracted axis. -/

/-- 64-deep product: the left factor's row is the entry's row. -/
theorem lhs64_0 (j : S10000x160.Idx) (k : dot_S10000x64_S64x160_S10000x160_1_0_0_1_n_n.contr.Idx) :
    ((dot_S10000x64_S64x160_S10000x160_1_0_0_1_n_n.lhsIdx j k 0 : Fin _) : ℕ) = (j 0 : ℕ) := by
  simp [DotDims.lhsIdx, dot_S10000x64_S64x160_S10000x160_1_0_0_1_n_n]; rfl

/-- 64-deep product: the left factor's column is the contracted position. -/
theorem lhs64_1 (j : S10000x160.Idx) (k : dot_S10000x64_S64x160_S10000x160_1_0_0_1_n_n.contr.Idx) :
    ((dot_S10000x64_S64x160_S10000x160_1_0_0_1_n_n.lhsIdx j k 1 : Fin _) : ℕ) = (k ⟨0, by decide⟩ : ℕ) :=
  dot_S10000x64_S64x160_S10000x160_1_0_0_1_n_n.lhsIdx_val_of_single (cl := 1) rfl j k

/-- 64-deep product: the right factor's row is the contracted position. -/
theorem rhs64_0 (j : S10000x160.Idx) (k : dot_S10000x64_S64x160_S10000x160_1_0_0_1_n_n.contr.Idx) :
    ((dot_S10000x64_S64x160_S10000x160_1_0_0_1_n_n.rhsIdx j k 0 : Fin _) : ℕ) = (k ⟨0, by decide⟩ : ℕ) :=
  dot_S10000x64_S64x160_S10000x160_1_0_0_1_n_n.rhsIdx_val_of_single (cr := 0) rfl j k

/-- 64-deep product: the right factor's column is the entry's column. -/
theorem rhs64_1 (j : S10000x160.Idx) (k : dot_S10000x64_S64x160_S10000x160_1_0_0_1_n_n.contr.Idx) :
    ((dot_S10000x64_S64x160_S10000x160_1_0_0_1_n_n.rhsIdx j k 1 : Fin _) : ℕ) = (j 1 : ℕ) := by
  simp [DotDims.rhsIdx, dot_S10000x64_S64x160_S10000x160_1_0_0_1_n_n]; rfl

/-- A 10000x64 block times a 64x160 block, added onto zero, at entry (p, q): the sum over k < 64 of x[p, k] · w[k, q]. -/
theorem mm64 (x : FVec Ideal S10000x64 .f32) (w : FVec Ideal S64x160 .f32) (p : Fin 10000) (q : Fin 160) :
    matmul dot_S10000x64_S64x160_S10000x160_1_0_0_1_n_n none x w (constant (F := Ideal) S10000x160 .f32 0x00000000#32) (ix2 p q)
      = ∑ k : Fin 64, x (ix2 p k) * w (ix2 k q) := by
  refine (Ideal.matmul_constant_zero_apply dot_S10000x64_S64x160_S10000x160_1_0_0_1_n_n none x w (ix2 p q)).trans ?_
  rw [← Equiv.sum_comp (contrEquiv1 dot_S10000x64_S64x160_S10000x160_1_0_0_1_n_n 64 rfl rfl).symm]
  refine Finset.sum_congr rfl fun k _ => ?_
  have hk := contrEquiv1_symm_val dot_S10000x64_S64x160_S10000x160_1_0_0_1_n_n 64 rfl rfl k
  congr 2
  · exact Shape.idx_ext₂ (lhs64_0 _ _) ((lhs64_1 _ _).trans hk)
  · exact Shape.idx_ext₂ ((rhs64_0 _ _).trans hk) (rhs64_1 _ _)

/-- 32-deep product: the left factor's row is the entry's row. -/
theorem lhs32_0 (j : S10000x160.Idx) (k : dot_S10000x32_S32x160_S10000x160_1_0_0_1_n_n.contr.Idx) :
    ((dot_S10000x32_S32x160_S10000x160_1_0_0_1_n_n.lhsIdx j k 0 : Fin _) : ℕ) = (j 0 : ℕ) := by
  simp [DotDims.lhsIdx, dot_S10000x32_S32x160_S10000x160_1_0_0_1_n_n]; rfl

/-- 32-deep product: the left factor's column is the contracted position. -/
theorem lhs32_1 (j : S10000x160.Idx) (k : dot_S10000x32_S32x160_S10000x160_1_0_0_1_n_n.contr.Idx) :
    ((dot_S10000x32_S32x160_S10000x160_1_0_0_1_n_n.lhsIdx j k 1 : Fin _) : ℕ) = (k ⟨0, by decide⟩ : ℕ) :=
  dot_S10000x32_S32x160_S10000x160_1_0_0_1_n_n.lhsIdx_val_of_single (cl := 1) rfl j k

/-- 32-deep product: the right factor's row is the contracted position. -/
theorem rhs32_0 (j : S10000x160.Idx) (k : dot_S10000x32_S32x160_S10000x160_1_0_0_1_n_n.contr.Idx) :
    ((dot_S10000x32_S32x160_S10000x160_1_0_0_1_n_n.rhsIdx j k 0 : Fin _) : ℕ) = (k ⟨0, by decide⟩ : ℕ) :=
  dot_S10000x32_S32x160_S10000x160_1_0_0_1_n_n.rhsIdx_val_of_single (cr := 0) rfl j k

/-- 32-deep product: the right factor's column is the entry's column. -/
theorem rhs32_1 (j : S10000x160.Idx) (k : dot_S10000x32_S32x160_S10000x160_1_0_0_1_n_n.contr.Idx) :
    ((dot_S10000x32_S32x160_S10000x160_1_0_0_1_n_n.rhsIdx j k 1 : Fin _) : ℕ) = (j 1 : ℕ) := by
  simp [DotDims.rhsIdx, dot_S10000x32_S32x160_S10000x160_1_0_0_1_n_n]; rfl

/-- A 10000x32 block times a 32x160 block, added onto zero, at entry (p, q): the sum over k < 32 of x[p, k] · w[k, q]. -/
theorem mm32 (x : FVec Ideal S10000x32 .f32) (w : FVec Ideal S32x160 .f32) (p : Fin 10000) (q : Fin 160) :
    matmul dot_S10000x32_S32x160_S10000x160_1_0_0_1_n_n none x w (constant (F := Ideal) S10000x160 .f32 0x00000000#32) (ix2 p q)
      = ∑ k : Fin 32, x (ix2 p k) * w (ix2 k q) := by
  refine (Ideal.matmul_constant_zero_apply dot_S10000x32_S32x160_S10000x160_1_0_0_1_n_n none x w (ix2 p q)).trans ?_
  rw [← Equiv.sum_comp (contrEquiv1 dot_S10000x32_S32x160_S10000x160_1_0_0_1_n_n 32 rfl rfl).symm]
  refine Finset.sum_congr rfl fun k _ => ?_
  have hk := contrEquiv1_symm_val dot_S10000x32_S32x160_S10000x160_1_0_0_1_n_n 32 rfl rfl k
  congr 2
  · exact Shape.idx_ext₂ (lhs32_0 _ _) ((lhs32_1 _ _).trans hk)
  · exact Shape.idx_ext₂ ((rhs32_0 _ _).trans hk) (rhs32_1 _ _)

/-! ## One tile's result at an entry -/

/-- Entry (p, q) of a tile's result, from the tile's seven blocks: leaky of the three products' entries added in the
    stage's order, plus entry q of the bias (the bias is one row repeated down the tile, so its row coordinate drops). -/
theorem pay_apply (x0 x1 : FVec Ideal S10000x64 .f32) (x2 : FVec Ideal S10000x32 .f32) (x3 x4 : FVec Ideal S64x160 .f32)
    (x5 : FVec Ideal S32x160 .f32) (x6 : FVec Ideal S160 .f32) (p : Fin 10000) (q : Fin 160) :
    k0_pay1 (F := Ideal) x0 x3 x1 x4 x2 x5 x6 (ix2 p q)
      = leaky ((((∑ k : Fin 64, x0 (ix2 p k) * x3 (ix2 k q)) + (∑ k : Fin 64, x1 (ix2 p k) * x4 (ix2 k q)))
          + (∑ k : Fin 32, x2 (ix2 p k) * x5 (ix2 k q))) + x6 (ix1 q)) := by
  unfold k0_pay1
  simp only [shapeCast_self]
  rw [select_apply, cmpf_apply, mulf_apply, broadcast_apply, broadcast_apply]
  rw [addf_apply, addf_apply, addf_apply, mm64, mm64, mm32, broadcastTo_1b_ab_apply, shapeCast_a_1a_apply]
  rfl

/-- If row p of the three edge blocks is row r of the three edge arrays, and column q of the weight blocks and entry q of
    the bias block are those of the weight and bias arrays, then entry (p, q) of the tile's result is entry (r, q) of
    `msgOf` of the arrays: an entry of `msgOf` depends on one row of each edge array and one column of each weight only. -/
theorem point_eq (gs gd : Mat 800000 64) (he : Mat 800000 32) (wa wb : Mat 64 160) (wc : Mat 32 160) (b : Row 160)
    (x0 x1 : FVec Ideal S10000x64 .f32) (x2 : FVec Ideal S10000x32 .f32) (x3 x4 : FVec Ideal S64x160 .f32)
    (x5 : FVec Ideal S32x160 .f32) (x6 : FVec Ideal S160 .f32) (p : Fin 10000) (q : Fin 160) (r : Fin 800000)
    (h0 : ∀ k : Fin 64, x0 (ix2 p k) = gs (ix2 r k))
    (h1 : ∀ k : Fin 64, x1 (ix2 p k) = gd (ix2 r k))
    (h2 : ∀ k : Fin 32, x2 (ix2 p k) = he (ix2 r k))
    (h3 : ∀ k : Fin 64, x3 (ix2 k q) = wa (ix2 k q))
    (h4 : ∀ k : Fin 64, x4 (ix2 k q) = wb (ix2 k q))
    (h5 : ∀ k : Fin 32, x5 (ix2 k q) = wc (ix2 k q))
    (h6 : x6 (ix1 q) = b (ix1 q)) :
    k0_pay1 (F := Ideal) x0 x3 x1 x4 x2 x5 x6 (ix2 p q) = msgOf gs gd he wa wb wc b (ix2 r q) := by
  rw [pay_apply]
  unfold msgOf
  simp only [h0, h1, h2, h3, h4, h5, h6]

/-! ## From the tiles to the array -/

theorem hz2 : (![0, 0] : Fin 2 → Nat) = fun _ => 0 := funext fun a => by fin_cases a <;> rfl
theorem hz1 : (![0] : Fin 1 → Nat) = fun _ => 0 := funext fun a => by fin_cases a; rfl

/-- Which block each window holds at tile t, for each of the eighty tiles: the three edge windows and the result window
    hold block (t, 0), 10000 rows each; the three weight windows and the bias window hold their whole arrays, block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- What tile t writes back is block t of `msgOf` of the seven arrays as the stage finds them: entry (p, q) of the tile
    is entry (10000 t + p, q) of the array, and it reads row 10000 t + p of the edge arrays, since a block's coordinate is
    its block index times the block's extent plus the coordinate inside the block. -/
theorem flushed_eq (c : Dev nD) (t : Fin cfg0.N) :
    (dat0 (F := Ideal) V c).flushed 7 t = ((cfg0.win 7).blk t).view.read (Elt Ideal)
      (msgOf (V c main_v0) (V c main_v1) (V c main_arg1) (V c main_v3) (V c main_v4) (V c main_v5) (V c main_arg5)) := by
  show (cfg0.win 7).cut (grid0.coords t) ((dat0 V c).after 7 t) = _
  rw [after0_7]
  unfold out0_7
  rw [View.canon_unit_zero hz2]
  simp only [View.ld_unit_zero (S := S10000x64) hz2, View.ld_unit_zero (S := S64x160) hz2, View.ld_unit_zero (S := S10000x32) hz2,
    View.ld_unit_zero (S := S32x160) hz2, View.ld_unit_zero (S := S160) hz1]
  funext j
  obtain ⟨p, q, rfl⟩ : ∃ (p : Fin 10000) (q : Fin 160), j = ix2 p q := ⟨j 0, j 1, eq_ix2 j⟩
  obtain ⟨e00, e01, e10, e11, e20, e21, e30, e31, e40, e41, e50, e51, e60, e70, e71⟩ := idx_facts t
  have ht : t.val < 80 := by have h := t.isLt; have hN : cfg0.N = 80 := N_0; omega
  show k0_pay1 (F := Ideal) (iblk0 V c 0 t) (iblk0 V c 3 t) (iblk0 V c 1 t) (iblk0 V c 4 t) (iblk0 V c 2 t) (iblk0 V c 5 t)
        (iblk0 V c 6 t) (ix2 p q)
      = msgOf (V c main_v0) (V c main_v1) (V c main_arg1) (V c main_v3) (V c main_v4) (V c main_v5) (V c main_arg5)
          (((cfg0.win 7).blk t).view.emb (ix2 p q))
  have hemb : ((cfg0.win 7).blk t).view.emb (ix2 p q) = ix2 (⟨t.val * 10000 + p.val, by omega⟩ : Fin 800000) q := by
    funext a; apply Fin.ext
    match a with
    | ⟨0, _⟩ => show win0_7.index t (0 : Fin 2) * 10000 + 1 * p.val = t.val * 10000 + p.val; rw [e70]; omega
    | ⟨1, _⟩ => show win0_7.index t (1 : Fin 2) * 160 + 1 * q.val = q.val; rw [e71]; omega
  rw [hemb]
  refine point_eq (V c main_v0) (V c main_v1) (V c main_arg1) (V c main_v3) (V c main_v4) (V c main_v5) (V c main_arg5)
    (iblk0 V c 0 t) (iblk0 V c 1 t) (iblk0 V c 2 t) (iblk0 V c 3 t) (iblk0 V c 4 t) (iblk0 V c 5 t) (iblk0 V c 6 t)
    p q ⟨t.val * 10000 + p.val, by omega⟩ ?_ ?_ ?_ ?_ ?_ ?_ ?_
  · intro k
    show V c main_v0 (((cfg0.win 0).blk t).view.emb (ix2 p k)) = _
    refine congrArg _ (funext fun a => Fin.ext ?_)
    match a with
    | ⟨0, _⟩ => show win0_0.index t (0 : Fin 2) * 10000 + 1 * p.val = t.val * 10000 + p.val; rw [e00]; omega
    | ⟨1, _⟩ => show win0_0.index t (1 : Fin 2) * 64 + 1 * k.val = k.val; rw [e01]; omega
  · intro k
    show V c main_v1 (((cfg0.win 1).blk t).view.emb (ix2 p k)) = _
    refine congrArg _ (funext fun a => Fin.ext ?_)
    match a with
    | ⟨0, _⟩ => show win0_1.index t (0 : Fin 2) * 10000 + 1 * p.val = t.val * 10000 + p.val; rw [e10]; omega
    | ⟨1, _⟩ => show win0_1.index t (1 : Fin 2) * 64 + 1 * k.val = k.val; rw [e11]; omega
  · intro k
    show V c main_arg1 (((cfg0.win 2).blk t).view.emb (ix2 p k)) = _
    refine congrArg _ (funext fun a => Fin.ext ?_)
    match a with
    | ⟨0, _⟩ => show win0_2.index t (0 : Fin 2) * 10000 + 1 * p.val = t.val * 10000 + p.val; rw [e20]; omega
    | ⟨1, _⟩ => show win0_2.index t (1 : Fin 2) * 32 + 1 * k.val = k.val; rw [e21]; omega
  · intro k
    show V c main_v3 (((cfg0.win 3).blk t).view.emb (ix2 k q)) = _
    refine congrArg _ (funext fun a => Fin.ext ?_)
    match a with
    | ⟨0, _⟩ => show win0_3.index t (0 : Fin 2) * 64 + 1 * k.val = k.val; rw [e30]; omega
    | ⟨1, _⟩ => show win0_3.index t (1 : Fin 2) * 160 + 1 * q.val = q.val; rw [e31]; omega
  · intro k
    show V c main_v4 (((cfg0.win 4).blk t).view.emb (ix2 k q)) = _
    refine congrArg _ (funext fun a => Fin.ext ?_)
    match a with
    | ⟨0, _⟩ => show win0_4.index t (0 : Fin 2) * 64 + 1 * k.val = k.val; rw [e40]; omega
    | ⟨1, _⟩ => show win0_4.index t (1 : Fin 2) * 160 + 1 * q.val = q.val; rw [e41]; omega
  · intro k
    show V c main_v5 (((cfg0.win 5).blk t).view.emb (ix2 k q)) = _
    refine congrArg _ (funext fun a => Fin.ext ?_)
    match a with
    | ⟨0, _⟩ => show win0_5.index t (0 : Fin 2) * 32 + 1 * k.val = k.val; rw [e50]; omega
    | ⟨1, _⟩ => show win0_5.index t (1 : Fin 2) * 160 + 1 * q.val = q.val; rw [e51]; omega
  · show V c main_arg5 (((cfg0.win 6).blk t).view.emb (ix1 q)) = _
    refine congrArg _ (funext fun a => Fin.ext ?_)
    match a with
    | ⟨0, _⟩ => show win0_6.index t (0 : Fin 1) * 160 + 1 * q.val = q.val; rw [e60]; omega

/-- An entry of the message array is in tile t's block exactly when, on each axis, its coordinate lies in the block's range. -/
theorem mem_blk (t : Fin cfg0.N) (i : S800000x160.Idx) :
    i ∈ ((cfg0.win 7).blk t).view.set ↔ ∀ a : Fin 2, win0_7.index t a * S10000x160.size a ≤ (i a).val
      ∧ (i a).val < win0_7.index t a * S10000x160.size a + S10000x160.size a := by
  show i ∈ ((View.whole main_v6).slice (win0_7.rect t)).set ↔ _
  rw [View.set_slice_whole, Rect.mem_set_unit]
  exact Iff.rfl

/-- Every entry of the message array is in some tile's block: row r is in tile r / 10000, and 800000 = 80 · 10000. -/
theorem cover (i : S800000x160.Idx) :
    ∃ t : Fin cfg0.N, (cfg0.win 7).flush t = true ∧ i ∈ ((cfg0.win 7).blk t).view.set := by
  have hi0 : (i 0).val < 800000 := (i 0).isLt
  have hi1 : (i 1).val < 160 := (i 1).isLt
  have hN : cfg0.N = 80 := N_0
  obtain ⟨t, ht⟩ : ∃ t : Fin cfg0.N, t.val = (i 0).val / 10000 := ⟨⟨(i 0).val / 10000, by omega⟩, rfl⟩
  obtain ⟨-, -, -, -, -, -, -, -, -, -, -, -, -, e70, e71⟩ := idx_facts t
  refine ⟨t, flush0_7 t, ?_⟩
  rw [mem_blk]
  intro a
  match a with
  | ⟨0, _⟩ =>
    show win0_7.index t (0 : Fin 2) * 10000 ≤ (i 0).val ∧ (i 0).val < win0_7.index t (0 : Fin 2) * 10000 + 10000
    rw [e70]; omega
  | ⟨1, _⟩ =>
    show win0_7.index t (1 : Fin 2) * 160 ≤ (i 1).val ∧ (i 1).val < win0_7.index t (1 : Fin 2) * 160 + 160
    rw [e71]; omega

/-- After the last tile the message array is `msgOf` of the stage's arrays as it found them. -/
theorem final (c : Dev nD) :
    (dat0 (F := Ideal) V c).arrAt 7 cfg0.N
      = msgOf (V c main_v0) (V c main_v1) (V c main_arg1) (V c main_v3) (V c main_v4) (V c main_v5) (V c main_arg5) :=
  (dat0 (F := Ideal) V c).arrAt_eq_of_cover 7
    (msgOf (V c main_v0) (V c main_v1) (V c main_arg1) (V c main_v3) (V c main_v4) (V c main_v5) (V c main_arg5))
    (fun t _ => flushed_eq V c t) cover

end Cert.KernelIdeal.Region0

end
-- ==== Proof.Region1.lean ====
/-
  The node stage's array after its five tiles: tile t holds rows 10000 t .. 10000 t + 9999 of ONE function of the five
  arrays the stage reads, so the tiles together are that function on every node.
-/
import proofs.«417945_j39470749450525_2_alg».proof.Proof.Gen.KernelIdeal.Frame
import proofs.«417945_j39470749450525_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Cert.Mpnn
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The two products' operand indices, axis by axis -/

theorem lhs_big_0 (i : S10000x224.Idx) (q : dot_S10000x160_S160x224_S10000x224_1_0_0_1_n_n.contr.Idx) :
    (dot_S10000x160_S160x224_S10000x224_1_0_0_1_n_n.lhsIdx i q 0).val = (i 0).val := by
  unfold DotDims.lhsIdx
  rw [dif_neg (show ¬(0 : Fin S10000x160.rank) ∈ dot_S10000x160_S160x224_S10000x224_1_0_0_1_n_n.lhsBatch by decide),
    dif_pos (show (0 : Fin S10000x160.rank) ∈ dot_S10000x160_S160x224_S10000x224_1_0_0_1_n_n.lhsNonContracting by decide)]
  rfl
theorem lhs_big_1 (i : S10000x224.Idx) (q : dot_S10000x160_S160x224_S10000x224_1_0_0_1_n_n.contr.Idx) :
    (dot_S10000x160_S160x224_S10000x224_1_0_0_1_n_n.lhsIdx i q 1).val = (q ⟨0, by decide⟩).val :=
  dot_S10000x160_S160x224_S10000x224_1_0_0_1_n_n.lhsIdx_val_of_single rfl i q
theorem rhs_big_0 (i : S10000x224.Idx) (q : dot_S10000x160_S160x224_S10000x224_1_0_0_1_n_n.contr.Idx) :
    (dot_S10000x160_S160x224_S10000x224_1_0_0_1_n_n.rhsIdx i q 0).val = (q ⟨0, by decide⟩).val :=
  dot_S10000x160_S160x224_S10000x224_1_0_0_1_n_n.rhsIdx_val_of_single rfl i q
theorem rhs_big_1 (i : S10000x224.Idx) (q : dot_S10000x160_S160x224_S10000x224_1_0_0_1_n_n.contr.Idx) :
    (dot_S10000x160_S160x224_S10000x224_1_0_0_1_n_n.rhsIdx i q 1).val = (i 1).val := by
  unfold DotDims.rhsIdx
  rw [dif_neg (show ¬(1 : Fin S160x224.rank) ∈ dot_S10000x160_S160x224_S10000x224_1_0_0_1_n_n.rhsBatch by decide),
    dif_pos (show (1 : Fin S160x224.rank) ∈ dot_S10000x160_S160x224_S10000x224_1_0_0_1_n_n.rhsNonContracting by decide)]
  rfl

theorem lhs_small_0 (i : S10000x224.Idx) (q : dot_S10000x64_S64x224_S10000x224_1_0_0_1_n_n.contr.Idx) :
    (dot_S10000x64_S64x224_S10000x224_1_0_0_1_n_n.lhsIdx i q 0).val = (i 0).val := by
  unfold DotDims.lhsIdx
  rw [dif_neg (show ¬(0 : Fin S10000x64.rank) ∈ dot_S10000x64_S64x224_S10000x224_1_0_0_1_n_n.lhsBatch by decide),
    dif_pos (show (0 : Fin S10000x64.rank) ∈ dot_S10000x64_S64x224_S10000x224_1_0_0_1_n_n.lhsNonContracting by decide)]
  rfl
theorem lhs_small_1 (i : S10000x224.Idx) (q : dot_S10000x64_S64x224_S10000x224_1_0_0_1_n_n.contr.Idx) :
    (dot_S10000x64_S64x224_S10000x224_1_0_0_1_n_n.lhsIdx i q 1).val = (q ⟨0, by decide⟩).val :=
  dot_S10000x64_S64x224_S10000x224_1_0_0_1_n_n.lhsIdx_val_of_single rfl i q
theorem rhs_small_0 (i : S10000x224.Idx) (q : dot_S10000x64_S64x224_S10000x224_1_0_0_1_n_n.contr.Idx) :
    (dot_S10000x64_S64x224_S10000x224_1_0_0_1_n_n.rhsIdx i q 0).val = (q ⟨0, by decide⟩).val :=
  dot_S10000x64_S64x224_S10000x224_1_0_0_1_n_n.rhsIdx_val_of_single rfl i q
theorem rhs_small_1 (i : S10000x224.Idx) (q : dot_S10000x64_S64x224_S10000x224_1_0_0_1_n_n.contr.Idx) :
    (dot_S10000x64_S64x224_S10000x224_1_0_0_1_n_n.rhsIdx i q 1).val = (i 1).val := by
  unfold DotDims.rhsIdx
  rw [dif_neg (show ¬(1 : Fin S64x224.rank) ∈ dot_S10000x64_S64x224_S10000x224_1_0_0_1_n_n.rhsBatch by decide),
    dif_pos (show (1 : Fin S64x224.rank) ∈ dot_S10000x64_S64x224_S10000x224_1_0_0_1_n_n.rhsNonContracting by decide)]
  rfl

/-! ## The two products at an entry -/

/-- The summed messages against rows 0..159 of the transposed weight: a sum over the 160 message coordinates. -/
theorem mm_big (A : FVec Ideal S10000x160 .f32) (B : FVec Ideal S160x224 .f32) (p : Fin 10000) (q : Fin 224) :
    matmul dot_S10000x160_S160x224_S10000x224_1_0_0_1_n_n none A B (constant S10000x224 .f32 0x00000000#32) (ix2 p q)
      = ∑ k : Fin 160, A (ix2 p k) * B (ix2 k q) := by
  show FloatOps.matmul _ none A B _ (ix2 p q) = _
  rw [Ideal.matmul_constant_zero_apply,
    ← Equiv.sum_comp (contrEquiv1 dot_S10000x160_S160x224_S10000x224_1_0_0_1_n_n 160 rfl rfl).symm]
  refine Finset.sum_congr rfl fun k _ => ?_
  have hk := contrEquiv1_symm_val dot_S10000x160_S160x224_S10000x224_1_0_0_1_n_n 160 rfl rfl k
  have el : dot_S10000x160_S160x224_S10000x224_1_0_0_1_n_n.lhsIdx (ix2 p q)
      ((contrEquiv1 dot_S10000x160_S160x224_S10000x224_1_0_0_1_n_n 160 rfl rfl).symm k) = ix2 p k :=
    funext fun a => Fin.ext (by
      match a with
      | ⟨0, _⟩ => exact lhs_big_0 _ _
      | ⟨1, _⟩ => exact (lhs_big_1 _ _).trans hk)
  have er : dot_S10000x160_S160x224_S10000x224_1_0_0_1_n_n.rhsIdx (ix2 p q)
      ((contrEquiv1 dot_S10000x160_S160x224_S10000x224_1_0_0_1_n_n 160 rfl rfl).symm k) = ix2 k q :=
    funext fun a => Fin.ext (by
      match a with
      | ⟨0, _⟩ => exact (rhs_big_0 _ _).trans hk
      | ⟨1, _⟩ => exact rhs_big_1 _ _)
  rw [el, er]

/-- The node's own features against rows 160..223 of the transposed weight: a sum over the 64 feature coordinates. -/
theorem mm_small (A : FVec Ideal S10000x64 .f32) (B : FVec Ideal S64x224 .f32) (p : Fin 10000) (q : Fin 224) :
    matmul dot_S10000x64_S64x224_S10000x224_1_0_0_1_n_n none A B (constant S10000x224 .f32 0x00000000#32) (ix2 p q)
      = ∑ k : Fin 64, A (ix2 p k) * B (ix2 k q) := by
  show FloatOps.matmul _ none A B _ (ix2 p q) = _
  rw [Ideal.matmul_constant_zero_apply,
    ← Equiv.sum_comp (contrEquiv1 dot_S10000x64_S64x224_S10000x224_1_0_0_1_n_n 64 rfl rfl).symm]
  refine Finset.sum_congr rfl fun k _ => ?_
  have hk := contrEquiv1_symm_val dot_S10000x64_S64x224_S10000x224_1_0_0_1_n_n 64 rfl rfl k
  have el : dot_S10000x64_S64x224_S10000x224_1_0_0_1_n_n.lhsIdx (ix2 p q)
      ((contrEquiv1 dot_S10000x64_S64x224_S10000x224_1_0_0_1_n_n 64 rfl rfl).symm k) = ix2 p k :=
    funext fun a => Fin.ext (by
      match a with
      | ⟨0, _⟩ => exact lhs_small_0 _ _
      | ⟨1, _⟩ => exact (lhs_small_1 _ _).trans hk)
  have er : dot_S10000x64_S64x224_S10000x224_1_0_0_1_n_n.rhsIdx (ix2 p q)
      ((contrEquiv1 dot_S10000x64_S64x224_S10000x224_1_0_0_1_n_n 64 rfl rfl).symm k) = ix2 k q :=
    funext fun a => Fin.ext (by
      match a with
      | ⟨0, _⟩ => exact (rhs_small_0 _ _).trans hk
      | ⟨1, _⟩ => exact rhs_small_1 _ _)
  rw [el, er]

/-! ## The bias row, spread over the tile's rows -/

/-- The bias vector seen as one row and repeated down the rows reads the bias at the column. -/
theorem bias_apply (b : FVec Ideal S224 .f32) (p : Fin 10000) (q : Fin 224) :
    broadcastTo S10000x224 (shapeCast S1x224 b shapeCasts_S224_S1x224) broadcasts_S1x224_S10000x224 (ix2 p q) = b (ix1 q) := by
  refine (broadcastTo_apply _ _ (ix2 p q) (ix2 (0 : Fin 1) q) (fun a => ?_)).trans ?_
  · match a with
    | ⟨0, _⟩ => rfl
    | ⟨1, _⟩ => rfl
  · refine shapeCast_apply _ _ (ix2 (0 : Fin 1) q) (ix1 q) ?_
    rw [Shape.rowMajor_val_one, Shape.rowMajor_val_two]
    show q.val = 0 * 224 + q.val
    omega

/-! ## The tile's payload at an entry -/

/-- The stored tile at row p, column q: leaky of the two products' sum plus the bias. -/
theorem pay_apply (x0 : Vec Ideal S10000x160 .f32) (x2 : Vec Ideal S160x224 .f32) (x1 : Vec Ideal S10000x64 .f32)
    (x3 : Vec Ideal S64x224 .f32) (x4 : Vec Ideal S224 .f32) (p : Fin 10000) (q : Fin 224) :
    k1_pay1 x0 x2 x1 x3 x4 (ix2 p q)
      = leaky (((∑ k : Fin 160, x0 (ix2 p k) * x2 (ix2 k q)) + (∑ k : Fin 64, x1 (ix2 p k) * x3 (ix2 k q))) + x4 (ix1 q)) := by
  unfold k1_pay1
  simp only [shapeCast_self]
  rw [select_apply, cmpf_apply, mulf_apply, addf_apply, addf_apply, broadcast_apply, broadcast_apply, mm_big, mm_small, bias_apply]
  rfl

/-! ## From tiles to the array -/

theorem zero_off2 : (![0, 0] : Fin 2 → Nat) = fun _ => 0 := funext fun a => by fin_cases a <;> rfl
theorem zero_off1 : (![0] : Fin 1 → Nat) = fun _ => 0 := funext fun a => by fin_cases a <;> rfl

/-- The block indices over the five tiles: the row-tiled windows sit at row block t, column block 0; the weights and the
    bias are whole. -/
theorem tile_indices : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 :=
  (by decide +kernel : ∀ t : Fin grid1.N, _)

/-- Tile t's block of the summed messages is rows 10000 t .. 10000 t + 9999 of the array. -/
theorem blk_msgs (c : Dev nD) (t : Fin cfg1.N) (y : S10000x160.Idx) (i : S50000x160.Idx)
    (h0 : (i 0).val = 10000 * t.val + (y 0).val) (h1 : (i 1).val = (y 1).val) :
    (iblk1 V c 0 t : Vec Ideal S10000x160 .f32) y = (V c main_v9 : S50000x160.Idx → EReal) i := by
  obtain ⟨-, -, e0, e1, -⟩ := tile_indices t
  unfold iblk1
  rw [View.read_apply]
  show V c main_v9 _ = V c main_v9 _
  congr 1
  funext a
  apply Fin.ext
  match a with
  | ⟨0, _⟩ => show win1_0.index t 0 * 10000 + 1 * (y 0).val = (i 0).val; rw [e0, h0]; omega
  | ⟨1, _⟩ => show win1_0.index t 1 * 160 + 1 * (y 1).val = (i 1).val; rw [e1, h1]; omega

/-- Tile t's block of the node features is rows 10000 t .. 10000 t + 9999 of the table. -/
theorem blk_nodes (c : Dev nD) (t : Fin cfg1.N) (y : S10000x64.Idx) (i : S50000x64.Idx)
    (h0 : (i 0).val = 10000 * t.val + (y 0).val) (h1 : (i 1).val = (y 1).val) :
    (iblk1 V c 1 t : Vec Ideal S10000x64 .f32) y = (V c main_arg0 : S50000x64.Idx → EReal) i := by
  obtain ⟨-, -, -, -, e0, e1, -⟩ := tile_indices t
  unfold iblk1
  rw [View.read_apply]
  show V c main_arg0 _ = V c main_arg0 _
  congr 1
  funext a
  apply Fin.ext
  match a with
  | ⟨0, _⟩ => show win1_1.index t 0 * 10000 + 1 * (y 0).val = (i 0).val; rw [e0, h0]; omega
  | ⟨1, _⟩ => show win1_1.index t 1 * 64 + 1 * (y 1).val = (i 1).val; rw [e1, h1]; omega

/-- Every tile sees the first weight block whole. -/
theorem blk_wd (c : Dev nD) (t : Fin cfg1.N) (y : S160x224.Idx) :
    (iblk1 V c 2 t : Vec Ideal S160x224 .f32) y = (V c main_v11 : S160x224.Idx → EReal) y := by
  obtain ⟨-, -, -, -, -, -, e0, e1, -⟩ := tile_indices t
  unfold iblk1
  rw [View.read_apply]
  show V c main_v11 _ = V c main_v11 _
  congr 1
  funext a
  apply Fin.ext
  match a with
  | ⟨0, _⟩ => show win1_2.index t 0 * 160 + 1 * (y 0).val = (y 0).val; rw [e0]; omega
  | ⟨1, _⟩ => show win1_2.index t 1 * 224 + 1 * (y 1).val = (y 1).val; rw [e1]; omega

/-- Every tile sees the second weight block whole. -/
theorem blk_we (c : Dev nD) (t : Fin cfg1.N) (y : S64x224.Idx) :
    (iblk1 V c 3 t : Vec Ideal S64x224 .f32) y = (V c main_v12 : S64x224.Idx → EReal) y := by
  obtain ⟨-, -, -, -, -, -, -, -, e0, e1, -⟩ := tile_indices t
  unfold iblk1
  rw [View.read_apply]
  show V c main_v12 _ = V c main_v12 _
  congr 1
  funext a
  apply Fin.ext
  match a with
  | ⟨0, _⟩ => show win1_3.index t 0 * 64 + 1 * (y 0).val = (y 0).val; rw [e0]; omega
  | ⟨1, _⟩ => show win1_3.index t 1 * 224 + 1 * (y 1).val = (y 1).val; rw [e1]; omega

/-- Every tile sees the bias whole. -/
theorem blk_bias (c : Dev nD) (t : Fin cfg1.N) (y : S224.Idx) :
    (iblk1 V c 4 t : Vec Ideal S224 .f32) y = (V c main_arg7 : S224.Idx → EReal) y := by
  obtain ⟨-, -, -, -, -, -, -, -, -, -, e0⟩ := tile_indices t
  unfold iblk1
  rw [View.read_apply]
  show V c main_arg7 _ = V c main_arg7 _
  congr 1
  funext a
  apply Fin.ext
  match a with
  | ⟨0, _⟩ => show win1_4.index t 0 * 224 + 1 * (y 0).val = (y 0).val; rw [e0]; omega

/-- What tile t writes back is rows 10000 t .. 10000 t + 9999 of `outOf` of the five arrays. -/
theorem tile_writes_rows (c : Dev nD) (t : Fin cfg1.N) :
    (dat1 (F := Ideal) V c).flushed 5 t = ((cfg1.win 5).blk t).view.read (Elt Ideal)
      (outOf (V c main_v9) (V c main_arg0) (V c main_v11) (V c main_v12) (V c main_arg7)) := by
  show (cfg1.win 5).cut (grid1.coords t) ((dat1 V c).after 5 t) = _
  rw [after1_5]
  unfold out1_5
  rw [View.canon_unit_zero zero_off2]
  simp only [View.ld_unit_zero (S := S10000x160) zero_off2, View.ld_unit_zero (S := S160x224) zero_off2,
    View.ld_unit_zero (S := S10000x64) zero_off2, View.ld_unit_zero (S := S64x224) zero_off2, View.ld_unit_zero (S := S224) zero_off1]
  obtain ⟨e0, e1, -⟩ := tile_indices t
  funext j
  obtain ⟨p, q, rfl⟩ : ∃ (p : Fin 10000) (q : Fin 224), j = ix2 p q := ⟨j 0, j 1, eq_ix2 j⟩
  show k1_pay1 (iblk1 V c 0 t) (iblk1 V c 2 t) (iblk1 V c 1 t) (iblk1 V c 3 t) (iblk1 V c 4 t) (ix2 p q)
    = outOf (V c main_v9) (V c main_arg0) (V c main_v11) (V c main_v12) (V c main_arg7) (((cfg1.win 5).blk t).view.emb (ix2 p q))
  refine (pay_apply (iblk1 V c 0 t) (iblk1 V c 2 t) (iblk1 V c 1 t) (iblk1 V c 3 t) (iblk1 V c 4 t) p q).trans ?_
  have r0 : ((((cfg1.win 5).blk t).view.emb (ix2 p q)) 0).val = 10000 * t.val + p.val := by
    show win1_5.index t 0 * 10000 + 1 * p.val = _; rw [e0]; omega
  have r1 : ((((cfg1.win 5).blk t).view.emb (ix2 p q)) 1).val = q.val := by
    show win1_5.index t 1 * 224 + 1 * q.val = _; rw [e1]; omega
  unfold outOf
  refine congrArg leaky (congrArg₂ (· + ·) (congrArg₂ (· + ·) (Finset.sum_congr rfl fun k _ => ?_) (Finset.sum_congr rfl fun k _ => ?_)) ?_)
  · refine congrArg₂ (· * ·) (blk_msgs V c t (ix2 p k) _ r0 rfl) ?_
    refine (blk_wd V c t (ix2 k q)).trans (congrArg _ ?_)
    funext a; apply Fin.ext
    match a with
    | ⟨0, _⟩ => rfl
    | ⟨1, _⟩ => exact r1.symm
  · refine congrArg₂ (· * ·) (blk_nodes V c t (ix2 p k) _ r0 rfl) ?_
    refine (blk_we V c t (ix2 k q)).trans (congrArg _ ?_)
    funext a; apply Fin.ext
    match a with
    | ⟨0, _⟩ => rfl
    | ⟨1, _⟩ => exact r1.symm
  · refine (blk_bias V c t (ix1 q)).trans (congrArg _ ?_)
    funext a; apply Fin.ext
    match a with
    | ⟨0, _⟩ => exact r1.symm

/-- An index of the array is in tile t's block iff each coordinate is in the block's range on its axis. -/
theorem mem_tile_rows (t : Fin cfg1.N) (i : S50000x224.Idx) :
    i ∈ ((cfg1.win 5).blk t).view.set ↔ ∀ a : Fin 2, win1_5.index t a * S10000x224.size a ≤ (i a).val ∧ (i a).val < win1_5.index t a * S10000x224.size a + S10000x224.size a := by
  show i ∈ ((View.whole main_v13).slice (win1_5.rect t)).set ↔ _
  rw [View.set_slice_whole, Rect.mem_set_unit]
  exact Iff.rfl

/-- Every node row is in the tile numbered by its quotient by 10000. -/
theorem rows_covered (i : S50000x224.Idx) :
    ∃ t : Fin cfg1.N, (cfg1.win 5).flush t = true ∧ i ∈ ((cfg1.win 5).blk t).view.set := by
  have hi0 : (i 0).val < 50000 := (i 0).isLt
  have hi1 : (i 1).val < 224 := (i 1).isLt
  have hN : grid1.N = 5 := N_1
  let t : Fin cfg1.N := ⟨(i 0).val / 10000, by show _ < grid1.N; rw [hN]; omega⟩
  obtain ⟨e0, e1, -⟩ := tile_indices t
  have ht : t.val = (i 0).val / 10000 := rfl
  refine ⟨t, flush1_5 t, ?_⟩
  rw [mem_tile_rows]
  intro a
  match a with
  | ⟨0, _⟩ => show win1_5.index t (0 : Fin 2) * 10000 ≤ (i 0).val ∧ (i 0).val < win1_5.index t (0 : Fin 2) * 10000 + 10000; rw [e0, ht]; omega
  | ⟨1, _⟩ => show win1_5.index t (1 : Fin 2) * 224 ≤ (i 1).val ∧ (i 1).val < win1_5.index t (1 : Fin 2) * 224 + 224; rw [e1]; omega

/-- After the last tile the output array is `outOf` of the stage's arrays as it found them. -/
theorem final (c : Dev nD) :
    (dat1 (F := Ideal) V c).arrAt 5 cfg1.N
      = outOf (V c main_v9) (V c main_arg0) (V c main_v11) (V c main_v12) (V c main_arg7) :=
  (dat1 (F := Ideal) V c).arrAt_eq_of_cover 5 _ (fun t _ => tile_writes_rows V c t) rows_covered

end Cert.KernelIdeal.Region1

end
-- ==== Proof.HostTake.lean ====
/-
  What the edge stage finds in its two gathered operands: the take of the node table at the source words and at the
  destination words, a row filled with the junk value where the normalised word names no node.
-/
import proofs.«417945_j39470749450525_2_alg».proof.Proof.Gen.KernelIdeal.Frame
import proofs.«417945_j39470749450525_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.StableHlo.Predicate
import Idealize.ShloMosaic.Lib.ReduceAll

set_option maxRecDepth 16384

noncomputable section

open scoped BigOperators

namespace Cert.KernelIdeal.HostTake

open Cert.KernelIdeal Cert.KernelIdeal.Gen Cert.Mpnn
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

open Idealize.ShloMosaic.StableHlo.Predicate (ixP)

/-! ## The take in fill mode, as the operations compose it -/

/-- The index words normalised, entry by entry: w + 50000 where w < 0, w elsewhere. -/
def normVec (idx : IVec S800000 32) : IVec S800000 32 :=
  select (cmpi .slt idx (broadcastInDim S800000 ![] Facts₀.bcast_S_S800000 (constantI S_ 32 0#32)))
    (addi idx (broadcastInDim S800000 ![] Facts₀.bcast_S_S800000 (constantI S_ 32 50000#32))) idx

/-- The normalised words as a column of start indices. -/
def normCol (idx : IVec S800000 32) : IVec S800000x1 32 :=
  broadcastInDim S800000x1 ![0] Facts₀.bcast_S800000_S800000x1_0 (normVec idx)

/-- The bit "the normalised word is in [0, 49999]", per edge: the and over the unit axis of the two signed compares. -/
def okMask (idx : IVec S800000 32) : IVec S800000 1 :=
  Host.reduce IntOp.andi
    (andi (cmpi .sge (normCol idx) (broadcastInDim S800000x1 ![] Facts₀.bcast_S_S800000x1 (constantI S_ 32 0#32)))
      (cmpi .sle (normCol idx) (broadcastInDim S800000x1 ![0, 1] Facts₀.bcast_S1x1_S800000x1_0_1
        (broadcastInDim S1x1 ![1] Facts₀.bcast_S1_S1x1_1 (constantI S1 32 49999#32)))))
    (constantI S_ 1 1#1) Facts₀.reducesTo_S800000x1_S800000_d1 Facts₀.h_S_

/-- The gathered rows where the bit is set, the junk constant elsewhere. -/
def takeT (hn : Vec Ideal S50000x64 .f32) (idx : IVec S800000 32) : Vec Ideal S800000x64 .f32 :=
  select (broadcastInDim S800000x64 ![0] Facts₀.bcast_S800000_S800000x64_0 (okMask idx))
    (Host.gather gather_S50000x64_S800000x1_S800000x64_1_0_n_n_0_1_164 hn (normCol idx))
    (broadcastInDim S800000x64 ![] Facts₀.bcast_S_S800000x64 (constant (F := Ideal) S_ .f32 0x7FC00000#32))

/-! ## The two stretches read at their results -/

/-- Contents carried to a typed reference's buffer and back are the contents. -/
theorem ofBuf_toBuf {T : BufTy} (x : StableHlo.TRef sig T) (v : T.Contents (Elt Ideal)) : x.ofBuf (x.toBuf v) = v := by
  obtain ⟨r, rfl, h1, h2⟩ := x
  rfl

/-- At a literal reference the carrying is the identity. -/
theorem toBuf_v0 (v : (⟨S800000x64, .f32⟩ : BufTy).Contents (Elt Ideal)) :
    ((StableHlo.TRef.of main_v0 : StableHlo.TRef sig ⟨S800000x64, .f32⟩).toBuf v : S800000x64.Idx → EReal) = v := rfl
theorem toBuf_v1 (v : (⟨S800000x64, .f32⟩ : BufTy).Contents (Elt Ideal)) :
    ((StableHlo.TRef.of main_v1 : StableHlo.TRef sig ⟨S800000x64, .f32⟩).toBuf v : S800000x64.Idx → EReal) = v := rfl
theorem ofBuf_arg0 (v : (Proc.devRef (τ := τ) .tc main_arg0).ty.Contents (Elt Ideal)) :
    (StableHlo.TRef.of main_arg0 : StableHlo.TRef sig ⟨S50000x64, .f32⟩).ofBuf v = (v : S50000x64.Idx → EReal) := rfl
theorem ofBuf_arg2 (v : (Proc.devRef (τ := τ) .tc main_arg2).ty.Contents (Elt Ideal)) :
    (StableHlo.TRef.of main_arg2 : StableHlo.TRef sig ⟨S800000, .i32⟩).ofBuf v = (v : S800000.Idx → BitVec 32) := rfl
theorem ofBuf_arg3 (v : (Proc.devRef (τ := τ) .tc main_arg3).ty.Contents (Elt Ideal)) :
    (StableHlo.TRef.of main_arg3 : StableHlo.TRef sig ⟨S800000, .i32⟩).ofBuf v = (v : S800000.Idx → BitVec 32) := rfl

open Idealize.ShloMosaic.StableHlo in
/-- The first stretch's fold at its result, the typed references' carryings still around the composed term. -/
theorem after0_v0' (V : Valuation τ sig (Elt Ideal)) : StableHlo.after hostOps0 V (Proc.devRef .tc main_v0)
    = (TRef.of main_v0 : TRef sig ⟨S800000x64, .f32⟩).toBuf
        (takeT ((TRef.of main_arg0 : TRef sig ⟨S50000x64, .f32⟩).ofBuf (V (Proc.devRef .tc main_arg0)))
          ((TRef.of main_arg2 : TRef sig ⟨S800000, .i32⟩).ofBuf (V (Proc.devRef .tc main_arg2)))) := by
  after_results_simp
  simp only [ofBuf_toBuf]
  unfold takeT okMask normCol normVec
  rfl

open Idealize.ShloMosaic.StableHlo in
/-- The second stretch's, likewise. -/
theorem after1_v1' (V : Valuation τ sig (Elt Ideal)) : StableHlo.after hostOps0_1 V (Proc.devRef .tc main_v1)
    = (TRef.of main_v1 : TRef sig ⟨S800000x64, .f32⟩).toBuf
        (takeT ((TRef.of main_arg0 : TRef sig ⟨S50000x64, .f32⟩).ofBuf (V (Proc.devRef .tc main_arg0)))
          ((TRef.of main_arg3 : TRef sig ⟨S800000, .i32⟩).ofBuf (V (Proc.devRef .tc main_arg3)))) := by
  after_results_simp
  simp only [ofBuf_toBuf]
  unfold takeT okMask normCol normVec
  rfl

/-- The first stretch leaves the take of the table at the source words in its result. -/
theorem after0_v0 (V : Valuation τ sig (Elt Ideal)) :
    (StableHlo.after hostOps0 V (Proc.devRef .tc main_v0) : S800000x64.Idx → EReal)
      = takeT (V (Proc.devRef .tc main_arg0)) (V (Proc.devRef .tc main_arg2)) :=
  ((after0_v0' V).trans (toBuf_v0 _)).trans (congrArg₂ takeT (ofBuf_arg0 _) (ofBuf_arg2 _))

/-- The second stretch leaves the take of the table at the destination words in its result. -/
theorem after1_v1 (V : Valuation τ sig (Elt Ideal)) :
    (StableHlo.after hostOps0_1 V (Proc.devRef .tc main_v1) : S800000x64.Idx → EReal)
      = takeT (V (Proc.devRef .tc main_arg0)) (V (Proc.devRef .tc main_arg3)) :=
  ((after1_v1' V).trans (toBuf_v1 _)).trans (congrArg₂ takeT (ofBuf_arg0 _) (ofBuf_arg3 _))

/-! ## The composed term read at an entry -/

/-- A vector laid down the rows of a rectangle reads, at (e, k), the vector at e. -/
theorem bcast_rows0 {α : Type} {n m : Nat} (h : (⟨1, ![n]⟩ : Shape).BroadcastsInDim ⟨2, ![n, m]⟩ ![0])
    (v : (⟨1, ![n]⟩ : Shape).Idx → α) (e : Fin n) (k : Fin m) :
    broadcastInDim ⟨2, ![n, m]⟩ ![0] h v (ix2 e k) = v (ix1 e) := by
  simp only [broadcastInDim]
  congr 1
  funext a
  have ha : a = 0 := Subsingleton.elim _ _
  subst ha
  apply Fin.ext
  have he := e.isLt
  split
  · next h1 => change n = 1 at h1; show (0 : Nat) = e.val; omega
  · rfl

/-- A vector kept as a column reads, at row e, the vector at e. -/
theorem bcast_col0 {α : Type} {n : Nat} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ixP e) = v (ix1 e) :=
  (StableHlo.Predicate.bcast_col1 h v e).trans (congrArg v (Shape.Idx.eq_ofFin (ix1 e)).symm)

/-- A fold over the one-point range is one application. -/
theorem fold_fin1 {α : Type} (op : α → α → α) [Std.Commutative op] [Std.Associative op] (b : α) (f : Fin 1 → α) :
    (Finset.univ : Finset (Fin 1)).fold op b f = op (f 0) b := by
  rw [Finset.univ_unique, Finset.fold_singleton]; rfl

/-- The and-reduction of a column over its unit axis, from the bit 1, is the column's entry. -/
theorem reduce_and_unit {n : Nat} (x : IVec ⟨2, ![n, 1]⟩ 1) (init : IVec ⟨0, ![]⟩ 1) (hinit : init ix0 = 1#1)
    (h' : (⟨2, ![n, 1]⟩ : Shape).ReducesTo [1] ⟨1, ![n]⟩) (hR : (⟨2, ![n, 1]⟩ : Shape).Reduces [1] ⟨1, ![n]⟩)
    (hu : 0 < (⟨0, ![]⟩ : Shape).numel) (e : Fin n) :
    Host.reduce IntOp.andi x init h' hu (ix1 e) = x (ixP e) := by
  -- the one source index over row e is (e, 0)
  have hl : ∀ k0 : Fin ((⟨2, ![n, 1]⟩ : Shape).size 1), hR.lift (ix1 e) k0 = ixP e := by
    intro k0
    funext c
    apply Fin.ext
    rw [hR.lift_val]
    match c with
    | ⟨0, _⟩ => rfl
    | ⟨1, _⟩ =>
      have hk : k0.val < 1 := k0.isLt
      show k0.val = 0
      omega
  rw [Host.reduce_eq_fold_single IntOp.andi x init h' hR hu]
  refine (fold_fin1 IntOp.andi (init (Shape.Idx.first hu)) (x ∘ hR.lift (ix1 e))).trans ?_
  rw [eq_ix0 (Shape.Idx.first hu), hinit]
  refine (congrArg (fun z => IntOp.andi (x z) 1#1) (hl _)).trans ?_
  show x (ixP e) &&& 1#1 = x (ixP e)
  rcases BitVec.eq_zero_or_eq_one (x (ixP e)) with h0 | h1
  · rw [h0]; rfl
  · rw [h1]; rfl
/-- The gather of a table's rows at a column of start indices: entry (e, k) is the table at the start index of row e,
    read signed and clamped into the table, and at column k. -/
theorem gather_row {α : Type} (hn : S50000x64.Idx → α) (col : IVec S800000x1 32) (e : Fin 800000) (k : Fin 64) :
    Host.gather gather_S50000x64_S800000x1_S800000x64_1_0_n_n_0_1_164 hn col (ix2 e k)
      = hn (ix2 ⟨min (col (ixP e)).toInt.toNat 49999, by omega⟩ k) := by
  unfold Host.gather
  congr 1
  funext a
  refine Fin.ext ?_
  match a with
  | ⟨0, _⟩ =>
    show gather_S50000x64_S800000x1_S800000x64_1_0_n_n_0_1_164.start (ix2 e k) col 0
      + gather_S50000x64_S800000x1_S800000x64_1_0_n_n_0_1_164.batchCoord (ix2 e k) 0
      + gather_S50000x64_S800000x1_S800000x64_1_0_n_n_0_1_164.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x64_S800000x1_S800000x64_1_0_n_n_0_1_164.startIndexMap from List.mem_singleton.mpr rfl)]
    have hsi : gather_S50000x64_S800000x1_S800000x64_1_0_n_n_0_1_164.siIdx (ix2 e k)
        ⟨List.idxOf (0 : Fin 2) gather_S50000x64_S800000x1_S800000x64_1_0_n_n_0_1_164.startIndexMap,
          List.idxOf_lt_length_iff.2 (List.mem_singleton.mpr rfl)⟩ = ixP e := by
      funext b; refine Fin.ext ?_
      match b with
      | ⟨0, _⟩ => rfl
      | ⟨1, _⟩ => rfl
    rw [hsi]
    rfl
  | ⟨1, _⟩ =>
    show gather_S50000x64_S800000x1_S800000x64_1_0_n_n_0_1_164.start (ix2 e k) col 1
      + gather_S50000x64_S800000x1_S800000x64_1_0_n_n_0_1_164.batchCoord (ix2 e k) 1
      + gather_S50000x64_S800000x1_S800000x64_1_0_n_n_0_1_164.offCoord (ix2 e k) 1 = _
    rw [GatherDims.batchCoord_eq_zero _ _ _ List.not_mem_nil]
    unfold GatherDims.start
    rw [dif_neg (show (1 : Fin 2) ∉ gather_S50000x64_S800000x1_S800000x64_1_0_n_n_0_1_164.startIndexMap from by decide)]
    simp only [Nat.add_zero, Nat.zero_add]
    rfl

/-- The same with the start index of row e named. -/
theorem gather_row' {α : Type} (hn : S50000x64.Idx → α) (col : IVec S800000x1 32) (e : Fin 800000) (k : Fin 64)
    (w : BitVec 32) (hw : col (ixP e) = w) :
    Host.gather gather_S50000x64_S800000x1_S800000x64_1_0_n_n_0_1_164 hn col (ix2 e k)
      = hn (ix2 ⟨min w.toInt.toNat 49999, by omega⟩ k) := by
  subst hw; exact gather_row hn col e k

/-- The column of start indices holds, at row e, the normalised word of edge e. -/
theorem normCol_apply (idx : IVec S800000 32) (e : Fin 800000) : normCol idx (ixP e) = normIdx (idx (ix1 e)) :=
  (bcast_col0 Facts₀.bcast_S800000_S800000x1_0 (normVec idx) e).trans rfl

/-- The two signed compares of a word against 0 and 49999, anded: the bit "the normalised word names a node". -/
theorem mask_eq (w : BitVec 32) :
    IntOp.andi (IntOp.cmpi .sge (normIdx w) 0#32) (IntOp.cmpi .sle (normIdx w) 49999#32) = if inRange w then 1#1 else 0#1 := by
  have h0 : (0#32 : BitVec 32).toInt = 0 := by decide
  have h1 : (49999#32 : BitVec 32).toInt = 49999 := by decide
  have key : IntOp.andi (IntOp.cmpi .sge (normIdx w) 0#32) (IntOp.cmpi .sle (normIdx w) 49999#32) = 1#1 ↔ inRange w := by
    rw [IntOp.andi_eq_one, IntOp.cmpi_sge, IntOp.cmpi_sle, h0, h1]
    exact Iff.rfl
  by_cases h : inRange w
  · rw [if_pos h]; exact key.mpr h
  · rw [if_neg h]; exact eq_zero_of_ne_one fun e => h (key.mp e)

/-- The bit of edge e. -/
theorem okMask_apply (idx : IVec S800000 32) (e : Fin 800000) :
    okMask idx (ix1 e) = if inRange (idx (ix1 e)) then 1#1 else 0#1 := by
  unfold okMask
  rw [reduce_and_unit _ _ rfl _ (by decide) _ e]
  show IntOp.andi (IntOp.cmpi .sge (normCol idx (ixP e)) 0#32) (IntOp.cmpi .sle (normCol idx (ixP e)) 49999#32) = _
  rw [normCol_apply, mask_eq]

/-- The quiet-NaN word is the junk value. -/
theorem nan_bot : Ideal.ofBits .f32 0x7FC00000#32 = ⊥ := by simp [Ideal.ofBits, Ideal.ieee]

/-- The composed term is the take that fills. -/
theorem takeT_eq (hn : Mat 50000 64) (idx : Ids 800000) : takeT hn idx = takeFill hn idx := by
  funext i
  obtain ⟨e, k, rfl⟩ : ∃ e k, i = ix2 e k := ⟨i 0, i 1, eq_ix2 i⟩
  unfold takeT
  rw [select_apply, bcast_rows0, okMask_apply, gather_row' hn (normCol idx) e k _ (normCol_apply idx e)]
  show Scalar.select (if inRange (idx (ix1 e)) then 1#1 else 0#1) (hn (ix2 (gRow (idx (ix1 e))) k)) (Ideal.ofBits .f32 0x7FC00000#32)
    = if inRange (idx (ix1 e)) then hn (ix2 (gRow (idx (ix1 e))) k) else ⊥
  by_cases h : inRange (idx (ix1 e))
  · rw [if_pos h, if_pos h, select_one]
  · rw [if_neg h, if_neg h, select_zero, nan_bot]

/-! ## What the edge stage finds -/

/-- The source rows as the edge stage finds them. -/
theorem entry0_v0 : V3 m ρ c main_v0 = takeFill (m ((c : Thread nD τ).loc main_arg0)) (m ((c : Thread nD τ).loc main_arg2)) := by
  -- neither later stretch writes the result of the first
  have h2 : W3 m ρ c (Proc.devRef .tc main_v0) = W2 m ρ c (Proc.devRef .tc main_v0) :=
    StableHlo.after_of_forall_not_mem (b := Proc.devRef .tc main_v0) _ _ (List.forall_iff_forall_mem.mp (by
      simp only [hostOps0_2, List.Forall, StableHlo.nullary_writes, StableHlo.unary_writes, StableHlo.binary_writes,
        StableHlo.ternary_writes, Finset.mem_singleton]
      repeat' apply And.intro
      all_goals exact StableHlo.devRef_ne_of_ne (by decide)))
  have h1 : W2 m ρ c (Proc.devRef .tc main_v0) = W1 m ρ c (Proc.devRef .tc main_v0) :=
    StableHlo.after_of_forall_not_mem (b := Proc.devRef .tc main_v0) _ _ (List.forall_iff_forall_mem.mp (by
      simp only [hostOps0_1, List.Forall, StableHlo.nullary_writes, StableHlo.unary_writes, StableHlo.binary_writes,
        StableHlo.ternary_writes, Finset.mem_singleton]
      repeat' apply And.intro
      all_goals exact StableHlo.devRef_ne_of_ne (by decide)))
  exact (h2.trans h1).trans ((after0_v0 (W0 m ρ c)).trans (takeT_eq _ _))

/-- The destination rows as the edge stage finds them. -/
theorem entry0_v1 : V3 m ρ c main_v1 = takeFill (m ((c : Thread nD τ).loc main_arg0)) (m ((c : Thread nD τ).loc main_arg3)) := by
  -- the last stretch does not write the result of the second, and the first writes neither of its two arguments
  have h2 : W3 m ρ c (Proc.devRef .tc main_v1) = W2 m ρ c (Proc.devRef .tc main_v1) :=
    StableHlo.after_of_forall_not_mem (b := Proc.devRef .tc main_v1) _ _ (List.forall_iff_forall_mem.mp (by
      simp only [hostOps0_2, List.Forall, StableHlo.nullary_writes, StableHlo.unary_writes, StableHlo.binary_writes,
        StableHlo.ternary_writes, Finset.mem_singleton]
      repeat' apply And.intro
      all_goals exact StableHlo.devRef_ne_of_ne (by decide)))
  have ha0 : W1 m ρ c (Proc.devRef .tc main_arg0) = W0 m ρ c (Proc.devRef .tc main_arg0) :=
    StableHlo.after_of_forall_not_mem (b := Proc.devRef .tc main_arg0) _ _ (List.forall_iff_forall_mem.mp (by
      simp only [hostOps0, List.Forall, StableHlo.nullary_writes, StableHlo.unary_writes, StableHlo.binary_writes,
        StableHlo.ternary_writes, Finset.mem_singleton]
      repeat' apply And.intro
      all_goals exact StableHlo.devRef_ne_of_ne (by decide)))
  have ha3 : W1 m ρ c (Proc.devRef .tc main_arg3) = W0 m ρ c (Proc.devRef .tc main_arg3) :=
    StableHlo.after_of_forall_not_mem (b := Proc.devRef .tc main_arg3) _ _ (List.forall_iff_forall_mem.mp (by
      simp only [hostOps0, List.Forall, StableHlo.nullary_writes, StableHlo.unary_writes, StableHlo.binary_writes,
        StableHlo.ternary_writes, Finset.mem_singleton]
      repeat' apply And.intro
      all_goals exact StableHlo.devRef_ne_of_ne (by decide)))
  exact h2.trans ((after1_v1 (W1 m ρ c)).trans ((congrArg₂ takeT ha0 ha3).trans (takeT_eq _ _)))

end Cert.KernelIdeal.HostTake

end
-- ==== Proof.HostRest.lean ====
/-
  What the two stages find in their other operands: the edge features, the biases and the node table as launched, the
  row blocks of the transposed weights, and the messages summed into their destination nodes.
-/
import proofs.«417945_j39470749450525_2_alg».proof.Proof.Gen.KernelIdeal.Frame
import proofs.«417945_j39470749450525_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.HostRest

open Cert.KernelIdeal Cert.KernelIdeal.Gen Cert.Mpnn
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- No operation of a stretch writes the buffer: every operation writes exactly its own result, another reference. -/
local macro "unwritten" "[" ops:ident "]" : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The launch contents at the buffers no operation writes -/

private theorem W3_arg0 : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem _ _ (by unwritten [hostOps0_2])
    _ = W1 m ρ c (Proc.devRef .tc main_arg0) := StableHlo.after_of_forall_not_mem _ _ (by unwritten [hostOps0_1])
    _ = W0 m ρ c (Proc.devRef .tc main_arg0) := StableHlo.after_of_forall_not_mem _ _ (by unwritten [hostOps0])
    _ = m ((c : Thread nD τ).loc main_arg0) := rfl

private theorem W3_arg1 : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem _ _ (by unwritten [hostOps0_2])
    _ = W1 m ρ c (Proc.devRef .tc main_arg1) := StableHlo.after_of_forall_not_mem _ _ (by unwritten [hostOps0_1])
    _ = W0 m ρ c (Proc.devRef .tc main_arg1) := StableHlo.after_of_forall_not_mem _ _ (by unwritten [hostOps0])
    _ = m ((c : Thread nD τ).loc main_arg1) := rfl

private theorem W3_arg3 : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem _ _ (by unwritten [hostOps0_2])
    _ = W1 m ρ c (Proc.devRef .tc main_arg3) := StableHlo.after_of_forall_not_mem _ _ (by unwritten [hostOps0_1])
    _ = W0 m ρ c (Proc.devRef .tc main_arg3) := StableHlo.after_of_forall_not_mem _ _ (by unwritten [hostOps0])
    _ = m ((c : Thread nD τ).loc main_arg3) := rfl

private theorem W3_arg5 : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem _ _ (by unwritten [hostOps0_2])
    _ = W1 m ρ c (Proc.devRef .tc main_arg5) := StableHlo.after_of_forall_not_mem _ _ (by unwritten [hostOps0_1])
    _ = W0 m ρ c (Proc.devRef .tc main_arg5) := StableHlo.after_of_forall_not_mem _ _ (by unwritten [hostOps0])
    _ = m ((c : Thread nD τ).loc main_arg5) := rfl

private theorem W3_arg6 : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem _ _ (by unwritten [hostOps0_2])
    _ = W1 m ρ c (Proc.devRef .tc main_arg6) := StableHlo.after_of_forall_not_mem _ _ (by unwritten [hostOps0_1])
    _ = W0 m ρ c (Proc.devRef .tc main_arg6) := StableHlo.after_of_forall_not_mem _ _ (by unwritten [hostOps0])
    _ = m ((c : Thread nD τ).loc main_arg6) := rfl

private theorem W3_arg7 : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem _ _ (by unwritten [hostOps0_2])
    _ = W1 m ρ c (Proc.devRef .tc main_arg7) := StableHlo.after_of_forall_not_mem _ _ (by unwritten [hostOps0_1])
    _ = W0 m ρ c (Proc.devRef .tc main_arg7) := StableHlo.after_of_forall_not_mem _ _ (by unwritten [hostOps0])
    _ = m ((c : Thread nD τ).loc main_arg7) := rfl

private theorem W2_arg4 : W2 m ρ c (Proc.devRef .tc main_arg4) = m ((c : Thread nD τ).loc main_arg4) :=
  calc W2 m ρ c (Proc.devRef .tc main_arg4)
    _ = W1 m ρ c (Proc.devRef .tc main_arg4) := StableHlo.after_of_forall_not_mem _ _ (by unwritten [hostOps0_1])
    _ = W0 m ρ c (Proc.devRef .tc main_arg4) := StableHlo.after_of_forall_not_mem _ _ (by unwritten [hostOps0])
    _ = m ((c : Thread nD τ).loc main_arg4) := rfl

private theorem W4_arg0 : W4 m ρ c (Proc.devRef .tc main_arg0) = m ((c : Thread nD τ).loc main_arg0) :=
  (W4_of_ne m ρ c main_arg0 (by decide)).trans (W3_arg0 m ρ c)

private theorem W4_arg3 : W4 m ρ c (Proc.devRef .tc main_arg3) = m ((c : Thread nD τ).loc main_arg3) :=
  (W4_of_ne m ρ c main_arg3 (by decide)).trans (W3_arg3 m ρ c)

private theorem W4_arg6 : W4 m ρ c (Proc.devRef .tc main_arg6) = m ((c : Thread nD τ).loc main_arg6) :=
  (W4_of_ne m ρ c main_arg6 (by decide)).trans (W3_arg6 m ρ c)

private theorem W4_arg7 : W4 m ρ c (Proc.devRef .tc main_arg7) = m ((c : Thread nD τ).loc main_arg7) :=
  (W4_of_ne m ρ c main_arg7 (by decide)).trans (W3_arg7 m ρ c)

theorem entry0_arg1 : V3 m ρ c main_arg1 = (m ((c : Thread nD τ).loc main_arg1)) := W3_arg1 m ρ c
theorem entry0_arg5 : V3 m ρ c main_arg5 = (m ((c : Thread nD τ).loc main_arg5)) := W3_arg5 m ρ c
theorem entry0_v3 : V3 m ρ c main_v3 = wA (m ((c : Thread nD τ).loc main_arg4)) := by
  have e : (V3 m ρ c main_v3 : S64x160.Idx → EReal) =
      extractStridedSlice S64x160 ![0, 0] (transpose S160x160 [1, 0] (W2 m ρ c (Proc.devRef .tc main_arg4)) transposes_S160x160_S160x160_1_0) slices_S160x160_S64x160_0_0 := by
    dsimp only [V3, W3, hostOps0_2]; after_results
  rw [e, W2_arg4]
  funext i
  obtain ⟨p, q, rfl⟩ : ∃ (p : Fin 64) (q : Fin 160), i = ix2 p q := ⟨i 0, i 1, eq_ix2 i⟩
  rw [slice2_axis0_eq, transpose_ix2_apply]
  unfold wA
  refine congrArg _ (congrArg (ix2 q) (Fin.ext ?_))
  show 0 + p.val = p.val
  omega

theorem entry0_v4 : V3 m ρ c main_v4 = wB (m ((c : Thread nD τ).loc main_arg4)) := by
  have e : (V3 m ρ c main_v4 : S64x160.Idx → EReal) =
      extractStridedSlice S64x160 ![64, 0] (transpose S160x160 [1, 0] (W2 m ρ c (Proc.devRef .tc main_arg4)) transposes_S160x160_S160x160_1_0) slices_S160x160_S64x160_64_0 := by
    dsimp only [V3, W3, hostOps0_2]; after_results
  rw [e, W2_arg4]
  funext i
  obtain ⟨p, q, rfl⟩ : ∃ (p : Fin 64) (q : Fin 160), i = ix2 p q := ⟨i 0, i 1, eq_ix2 i⟩
  rw [slice2_axis0_eq, transpose_ix2_apply]
  unfold wB
  refine congrArg _ (congrArg (ix2 q) (Fin.ext ?_))
  show 64 + p.val = p.val + 64
  omega

theorem entry0_v5 : V3 m ρ c main_v5 = wC (m ((c : Thread nD τ).loc main_arg4)) := by
  have e : (V3 m ρ c main_v5 : S32x160.Idx → EReal) =
      extractStridedSlice S32x160 ![128, 0] (transpose S160x160 [1, 0] (W2 m ρ c (Proc.devRef .tc main_arg4)) transposes_S160x160_S160x160_1_0) slices_S160x160_S32x160_128_0 := by
    dsimp only [V3, W3, hostOps0_2]; after_results
  rw [e, W2_arg4]
  funext i
  obtain ⟨p, q, rfl⟩ : ∃ (p : Fin 32) (q : Fin 160), i = ix2 p q := ⟨i 0, i 1, eq_ix2 i⟩
  rw [slice2_axis0_eq, transpose_ix2_apply]
  unfold wC
  refine congrArg _ (congrArg (ix2 q) (Fin.ext ?_))
  show 128 + p.val = p.val + 128
  omega

/-- A vector read as a one-column matrix: entry (e, 0) is entry e. -/
private theorem column_eq (v : S800000.Idx → BitVec 32) :
    broadcastInDim S800000x1 ![0] bcast_S800000_S800000x1_0 v = fun i => v (ix1 (i 0)) := by
  funext i
  unfold broadcastInDim
  congr 1
  funext a
  match a with
  | ⟨0, _⟩ =>
    split
    · next h1 => change (800000 : Nat) = 1 at h1; omega
    · rfl

/-- The summed messages, over whatever the edge stage left in its result array. -/
theorem entry1_v9 : V5 m ρ c main_v9 = segSum (m ((c : Thread nD τ).loc main_arg3)) (W4 m ρ c (Proc.devRef .tc main_v6)) := by
  have e : (V5 m ρ c main_v9 : S50000x160.Idx → EReal) =
      Host.scatterAdd (F := Ideal) scatter_S50000x160_S800000x1_S800000x160_1_0_0_1
        (broadcastInDim S50000x160 ![] bcast_S_S50000x160 (constant (F := Ideal) S_ .f32 0x00000000#32))
        (broadcastInDim S800000x1 ![0] bcast_S800000_S800000x1_0 (W4 m ρ c (Proc.devRef .tc main_arg3)))
        (W4 m ρ c (Proc.devRef .tc main_v6)) := by
    dsimp only [V5, W5, hostOps1]; after_results
  rw [e, W4_arg3, column_eq]
  rfl
theorem entry1_arg0 : V5 m ρ c main_arg0 = (m ((c : Thread nD τ).loc main_arg0)) :=
  (StableHlo.after_of_forall_not_mem _ _ (by unwritten [hostOps1])).trans (W4_arg0 m ρ c)
theorem entry1_arg7 : V5 m ρ c main_arg7 = (m ((c : Thread nD τ).loc main_arg7)) :=
  (StableHlo.after_of_forall_not_mem _ _ (by unwritten [hostOps1])).trans (W4_arg7 m ρ c)
theorem entry1_v11 : V5 m ρ c main_v11 = wD (m ((c : Thread nD τ).loc main_arg6)) := by
  have e : (V5 m ρ c main_v11 : S160x224.Idx → EReal) =
      extractStridedSlice S160x224 ![0, 0] (transpose S224x224 [1, 0] (W4 m ρ c (Proc.devRef .tc main_arg6)) transposes_S224x224_S224x224_1_0) slices_S224x224_S160x224_0_0 := by
    dsimp only [V5, W5, hostOps1]; after_results
  rw [e, W4_arg6]
  funext i
  obtain ⟨p, q, rfl⟩ : ∃ (p : Fin 160) (q : Fin 224), i = ix2 p q := ⟨i 0, i 1, eq_ix2 i⟩
  rw [slice2_axis0_eq, transpose_ix2_apply]
  unfold wD
  refine congrArg _ (congrArg (ix2 q) (Fin.ext ?_))
  show 0 + p.val = p.val
  omega

theorem entry1_v12 : V5 m ρ c main_v12 = wE (m ((c : Thread nD τ).loc main_arg6)) := by
  have e : (V5 m ρ c main_v12 : S64x224.Idx → EReal) =
      extractStridedSlice S64x224 ![160, 0] (transpose S224x224 [1, 0] (W4 m ρ c (Proc.devRef .tc main_arg6)) transposes_S224x224_S224x224_1_0) slices_S224x224_S64x224_160_0 := by
    dsimp only [V5, W5, hostOps1]; after_results
  rw [e, W4_arg6]
  funext i
  obtain ⟨p, q, rfl⟩ : ∃ (p : Fin 64) (q : Fin 224), i = ix2 p q := ⟨i 0, i 1, eq_ix2 i⟩
  rw [slice2_axis0_eq, transpose_ix2_apply]
  unfold wE
  refine congrArg _ (congrArg (ix2 q) (Fin.ext ?_))
  show 160 + p.val = p.val + 160
  omega

end Cert.KernelIdeal.HostRest

end
-- ==== Proof.KValue.lean ====
/-
  The tiled program's result array as one function of its eight arguments: the node stage's function of the summed
  messages, which are the edge stage's function of the two takes.
-/
import proofs.«417945_j39470749450525_2_alg».proof.Proof.Region0
import proofs.«417945_j39470749450525_2_alg».proof.Proof.Region1
import proofs.«417945_j39470749450525_2_alg».proof.Proof.HostTake
import proofs.«417945_j39470749450525_2_alg».proof.Proof.HostRest

noncomputable section

namespace Cert.KernelIdeal.Value

open Cert.KernelIdeal Cert.KernelIdeal.Gen Cert.Mpnn
open Idealize.ShloMosaic Idealize.ShloMosaic.TcCoe Idealize.SL.Sem

variable (m : (ℓ : Loc nD τ sig) → Buf (Elt Ideal) ℓ) (ρ : Dev nD → PrngReg) (c : Dev nD)

/-- The result buffer at the run's last boundary is `outK` of the arguments. -/
theorem final : W6 m ρ c (Proc.devRef .tc main_v13)
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  -- the result array is the node stage's window 5 after its last tile
  refine (W6_arr m ρ c 5).trans ?_
  rw [Cert.KernelIdeal.Region1.final (V5 m ρ) c]
  rw [Cert.KernelIdeal.HostRest.entry1_v9 m ρ c, Cert.KernelIdeal.HostRest.entry1_arg0 m ρ c,
    Cert.KernelIdeal.HostRest.entry1_v11 m ρ c, Cert.KernelIdeal.HostRest.entry1_v12 m ρ c,
    Cert.KernelIdeal.HostRest.entry1_arg7 m ρ c]
  -- the summed array is the edge stage's window 7 after its last tile
  rw [show W4 m ρ c (Proc.devRef .tc main_v6) = (dat0 (V3 m ρ) c).arrAt 7 cfg0.N from W4_arr m ρ c 7]
  rw [Cert.KernelIdeal.Region0.final (V3 m ρ) c]
  rw [Cert.KernelIdeal.HostTake.entry0_v0 m ρ c, Cert.KernelIdeal.HostTake.entry0_v1 m ρ c,
    Cert.KernelIdeal.HostRest.entry0_arg1 m ρ c, Cert.KernelIdeal.HostRest.entry0_v3 m ρ c,
    Cert.KernelIdeal.HostRest.entry0_v4 m ρ c, Cert.KernelIdeal.HostRest.entry0_v5 m ρ c,
    Cert.KernelIdeal.HostRest.entry0_arg5 m ρ c]
  rfl

end Cert.KernelIdeal.Value

end
-- ==== Proof.RefTerm.lean ====
/-
  The plain program's @main as one term of its eight arguments: the printed operations composed in order (the two node
  gathers at the normalised words, the concatenation against the transposed weight, the bias, leaky_relu as its callee
  spells it; the scatter-sum; the same again for the node update).
-/
import proofs.«417945_j39470749450525_2_alg».proof.Proof.Gen.ReferenceIdeal

noncomputable section

namespace Cert.ReferenceIdeal.RunV

open Cert.ReferenceIdeal Idealize.ShloMosaic
open Cert.ReferenceIdeal.Facts₀

variable {F : FTy → Type} [FloatOps F]

/-- A word column of start indices: w + 50000 where w < 0, w elsewhere, laid as an [800000, 1] column. -/
def startCol (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- leaky_relu on the message array, as the callee's operations. -/
def lreluE (x : FVec F S800000x160 .f32) (a : FVec F S_ .f32) : FVec F S800000x160 .f32 :=
  select (cmpf .oge x (broadcastInDim S800000x160 ![] bcast_S_S800000x160 (constant S_ .f32 0x00000000#32))) x
    (mulf (broadcastInDim S800000x160 ![] bcast_S_S800000x160 (id a)) x)

/-- leaky_relu on the output array, as the callee's operations. -/
def lreluN (x : FVec F S50000x224 .f32) (a : FVec F S_ .f32) : FVec F S50000x224 .f32 :=
  select (cmpf .oge x (broadcastInDim S50000x224 ![] bcast_S_S50000x224 (constant S_ .f32 0x00000000#32))) x
    (mulf (broadcastInDim S50000x224 ![] bcast_S_S50000x224 (id a)) x)

/-- The messages: leaky_relu of [h_n[src] | h_n[dst] | h_e] against the transposed weight, plus the bias. -/
def refMsg (hn : FVec F S50000x64 .f32) (he : FVec F S800000x32 .f32) (src dst : IVec S800000 32)
    (Wm : FVec F S160x160 .f32) (bm : FVec F S160 .f32) : FVec F S800000x160 .f32 :=
  lreluE
    (addf
      (Host.dotGeneral dot_S800000x160_S160x160_S800000x160_1_0_0_1_n_n none
        (concatenate S800000x160 1
          [⟨S800000x64, Host.gather gather_S50000x64_S800000x1_S800000x64_1_0_n_n_0_1_164 hn (startCol src)⟩,
           ⟨S800000x64, Host.gather gather_S50000x64_S800000x1_S800000x64_1_0_n_n_0_1_164 hn (startCol dst)⟩,
           ⟨S800000x32, he⟩]
          concatenates_S800000x64_S800000x64_S800000x32_S800000x160_d1)
        (transpose S160x160 [1, 0] Wm transposes_S160x160_S160x160_1_0))
      (broadcastInDim S800000x160 ![0, 1] bcast_S1x160_S800000x160_0_1 (broadcastInDim S1x160 ![1] bcast_S160_S1x160_1 bm)))
    (constant S_ .f32 0x3C23D70A#32)

/-- The messages summed into their destination nodes, from zeros. -/
def refSum (dst : IVec S800000 32) (msg : FVec F S800000x160 .f32) : FVec F S50000x160 .f32 :=
  Host.scatterAdd scatter_S50000x160_S800000x1_S800000x160_1_0_0_1
    (broadcastInDim S50000x160 ![] bcast_S_S50000x160 (constant S_ .f32 0x00000000#32))
    (broadcastInDim S800000x1 ![0] bcast_S800000_S800000x1_0 dst) msg

/-- @main's result as one term of its arguments. -/
def refTerm (hn : FVec F S50000x64 .f32) (he : FVec F S800000x32 .f32) (src dst : IVec S800000 32)
    (Wm : FVec F S160x160 .f32) (bm : FVec F S160 .f32) (Wh : FVec F S224x224 .f32) (bh : FVec F S224 .f32) :
    FVec F S50000x224 .f32 :=
  lreluN
    (addf
      (Host.dotGeneral dot_S50000x224_S224x224_S50000x224_1_0_0_1_n_n none
        (concatenate S50000x224 1 [⟨S50000x160, refSum dst (refMsg hn he src dst Wm bm)⟩, ⟨S50000x64, hn⟩]
          concatenates_S50000x160_S50000x64_S50000x224_d1)
        (transpose S224x224 [1, 0] Wh transposes_S224x224_S224x224_1_0))
      (broadcastInDim S50000x224 ![0, 1] bcast_S1x224_S50000x224_0_1 (broadcastInDim S1x224 ![1] bcast_S224_S1x224_1 bh)))
    (constant S_ .f32 0x3C23D70A#32)

end Cert.ReferenceIdeal.RunV

end
-- ==== Proof.RefRun.lean ====
/-
  The plain program's run: @main is a straight line of host operations (the two leaky_relu calls unfolded where they
  are called), so every weakly fair execution ends with the result buffer at the operations' composed term of the
  arguments, and the arguments as launched.
-/
import proofs.«417945_j39470749450525_2_alg».proof.Proof.RefTerm
import Idealize.ShloMosaic.Lib.StableHlo.Run

noncomputable section

namespace Cert.ReferenceIdeal.RunV

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two leaky_relu calls unfolded at their call sites: each is seven operations over
    its own call's buffers (the zero, its broadcast, the comparison against it, the slope converted to its own type,
    its broadcast, the product, and `_where`'s select, whose result buffer is the call's). -/
abbrev ops : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg2 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg2 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg2 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_1 (constantI S_ 32 0#32),
    unary main_c_1 main_v7 (broadcastInDim S800000 ![] bcast_S_S800000 : (⟨S_, .i32⟩ : BufTy).Contents (Elt F) → (⟨S800000, .i32⟩ : BufTy).Contents (Elt F)),
    binary main_arg3 main_v7 main_v8 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v9 (broadcastInDim S800000 ![] bcast_S_S800000 : (⟨S_, .i32⟩ : BufTy).Contents (Elt F) → (⟨S800000, .i32⟩ : BufTy).Contents (Elt F)),
    binary main_arg3 main_v9 main_v10 (addi : (⟨S800000, .i32⟩ : BufTy).Contents (Elt F) → (⟨S800000, .i32⟩ : BufTy).Contents (Elt F) → (⟨S800000, .i32⟩ : BufTy).Contents (Elt F)),
    ternary main_v8 main_v10 main_arg3 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v11 main_v12 (broadcastInDim S800000x1 ![0] bcast_S800000_S800000x1_0 : (⟨S800000, .i32⟩ : BufTy).Contents (Elt F) → (⟨S800000x1, .i32⟩ : BufTy).Contents (Elt F)),
    binary main_arg0 main_v12 main_v13 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nary ![main_v6, main_v13, main_arg1] main_v14 (fun u => concatenate S800000x160 1 [⟨S800000x64, u 0⟩, ⟨S800000x64, u 1⟩, ⟨S800000x32, u 2⟩] concatenates_S800000x64_S800000x64_S800000x32_S800000x160_d1),
    unary main_arg4 main_v15 ((transpose S160x160 [1, 0] · transposes_S160x160_S160x160_1_0) : (⟨S160x160, .f32⟩ : BufTy).Contents (Elt F) → (⟨S160x160, .f32⟩ : BufTy).Contents (Elt F)),
    binary main_v14 main_v15 main_v16 ((fun l r => Host.dotGeneral dot_S800000x160_S160x160_S800000x160_1_0_0_1_n_n none l r) : (⟨S800000x160, .f32⟩ : BufTy).Contents (Elt F) → (⟨S160x160, .f32⟩ : BufTy).Contents (Elt F) → (⟨S800000x160, .f32⟩ : BufTy).Contents (Elt F)),
    unary main_arg5 main_v17 (broadcastInDim S1x160 ![1] bcast_S160_S1x160_1 : (⟨S160, .f32⟩ : BufTy).Contents (Elt F) → (⟨S1x160, .f32⟩ : BufTy).Contents (Elt F)),
    unary main_v17 main_v18 (broadcastInDim S800000x160 ![0, 1] bcast_S1x160_S800000x160_0_1 : (⟨S1x160, .f32⟩ : BufTy).Contents (Elt F) → (⟨S800000x160, .f32⟩ : BufTy).Contents (Elt F)),
    binary main_v16 main_v18 main_v19 (addf : (⟨S800000x160, .f32⟩ : BufTy).Contents (Elt F) → (⟨S800000x160, .f32⟩ : BufTy).Contents (Elt F) → (⟨S800000x160, .f32⟩ : BufTy).Contents (Elt F)),
    nullary main_cst (constant S_ .f32 0x3C23D70A#32),
    TRef.nullary main_call0.cst (constant S_ .f32 0x00000000#32),
    TRef.unary main_call0.cst main_call0.v0 (broadcastInDim S800000x160 ![] bcast_S_S800000x160),
    TRef.binary (.of main_v19 : TRef sig ⟨S800000x160, .f32⟩) main_call0.v0 main_call0.v1 (cmpf .oge),
    TRef.unary (.of main_cst : TRef sig ⟨S_, .f32⟩) main_call0.v2 id,
    TRef.unary main_call0.v2 main_call0.v3 (broadcastInDim S800000x160 ![] bcast_S_S800000x160),
    TRef.binary main_call0.v3 (.of main_v19 : TRef sig ⟨S800000x160, .f32⟩) main_call0.v4 mulf,
    TRef.ternary main_call0.v1 (.of main_v19 : TRef sig ⟨S800000x160, .f32⟩) main_call0.v4 main_call0.call0.v0 select,
    nullary main_cst_3 (constant S_ .f32 0x00000000#32),
    unary main_cst_3 main_v21 (broadcastInDim S50000x160 ![] bcast_S_S50000x160 : (⟨S_, .f32⟩ : BufTy).Contents (Elt F) → (⟨S50000x160, .f32⟩ : BufTy).Contents (Elt F)),
    unary main_arg3 main_v22 (broadcastInDim S800000x1 ![0] bcast_S800000_S800000x1_0 : (⟨S800000, .i32⟩ : BufTy).Contents (Elt F) → (⟨S800000x1, .i32⟩ : BufTy).Contents (Elt F)),
    ternary main_v21 main_v22 main_v20 main_v23 ((fun x i u => Host.scatterAdd scatter_S50000x160_S800000x1_S800000x160_1_0_0_1 x i u) : (⟨S50000x160, .f32⟩ : BufTy).Contents (Elt F) → (⟨S800000x1, .i32⟩ : BufTy).Contents (Elt F) → (⟨S800000x160, .f32⟩ : BufTy).Contents (Elt F) → (⟨S50000x160, .f32⟩ : BufTy).Contents (Elt F)),
    binary main_v23 main_arg0 main_v24 ((fun a b => concatenate S50000x224 1 [⟨S50000x160, a⟩, ⟨S50000x64, b⟩] concatenates_S50000x160_S50000x64_S50000x224_d1) : (⟨S50000x160, .f32⟩ : BufTy).Contents (Elt F) → (⟨S50000x64, .f32⟩ : BufTy).Contents (Elt F) → (⟨S50000x224, .f32⟩ : BufTy).Contents (Elt F)),
    unary main_arg6 main_v25 ((transpose S224x224 [1, 0] · transposes_S224x224_S224x224_1_0) : (⟨S224x224, .f32⟩ : BufTy).Contents (Elt F) → (⟨S224x224, .f32⟩ : BufTy).Contents (Elt F)),
    binary main_v24 main_v25 main_v26 ((fun l r => Host.dotGeneral dot_S50000x224_S224x224_S50000x224_1_0_0_1_n_n none l r) : (⟨S50000x224, .f32⟩ : BufTy).Contents (Elt F) → (⟨S224x224, .f32⟩ : BufTy).Contents (Elt F) → (⟨S50000x224, .f32⟩ : BufTy).Contents (Elt F)),
    unary main_arg7 main_v27 (broadcastInDim S1x224 ![1] bcast_S224_S1x224_1 : (⟨S224, .f32⟩ : BufTy).Contents (Elt F) → (⟨S1x224, .f32⟩ : BufTy).Contents (Elt F)),
    unary main_v27 main_v28 (broadcastInDim S50000x224 ![0, 1] bcast_S1x224_S50000x224_0_1 : (⟨S1x224, .f32⟩ : BufTy).Contents (Elt F) → (⟨S50000x224, .f32⟩ : BufTy).Contents (Elt F)),
    binary main_v26 main_v28 main_v29 (addf : (⟨S50000x224, .f32⟩ : BufTy).Contents (Elt F) → (⟨S50000x224, .f32⟩ : BufTy).Contents (Elt F) → (⟨S50000x224, .f32⟩ : BufTy).Contents (Elt F)),
    nullary main_cst_4 (constant S_ .f32 0x3C23D70A#32),
    TRef.nullary main_call1.cst (constant S_ .f32 0x00000000#32),
    TRef.unary main_call1.cst main_call1.v0 (broadcastInDim S50000x224 ![] bcast_S_S50000x224),
    TRef.binary (.of main_v29 : TRef sig ⟨S50000x224, .f32⟩) main_call1.v0 main_call1.v1 (cmpf .oge),
    TRef.unary (.of main_cst_4 : TRef sig ⟨S_, .f32⟩) main_call1.v2 id,
    TRef.unary main_call1.v2 main_call1.v3 (broadcastInDim S50000x224 ![] bcast_S_S50000x224),
    TRef.binary main_call1.v3 (.of main_v29 : TRef sig ⟨S50000x224, .f32⟩) main_call1.v4 mulf,
    TRef.ternary main_call1.v1 (.of main_v29 : TRef sig ⟨S50000x224, .f32⟩) main_call1.v4 main_call1.call0.v0 select ]

-- fifty sequencing steps reassociated, one level of recursion each
set_option maxRecDepth 1024 in
/-- @main is that straight line: the callees' definitions unfolded at their calls, both sides are one chain of steps
    once sequencing is reassociated. -/
theorem main_eq (c : Dev nD) : main (F := F) c = seq ops := by
  simp only [main, fn_leaky_relu.body, fn_where.body, fn_leaky_relu_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., unary_bufs_sub .., ternary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- The first stretch: the two node gathers at the normalised words. -/
abbrev ops1 : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg2 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg2 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg2 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_1 (constantI S_ 32 0#32),
    unary main_c_1 main_v7 (broadcastInDim S800000 ![] bcast_S_S800000 : (⟨S_, .i32⟩ : BufTy).Contents (Elt F) → (⟨S800000, .i32⟩ : BufTy).Contents (Elt F)),
    binary main_arg3 main_v7 main_v8 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v9 (broadcastInDim S800000 ![] bcast_S_S800000 : (⟨S_, .i32⟩ : BufTy).Contents (Elt F) → (⟨S800000, .i32⟩ : BufTy).Contents (Elt F)),
    binary main_arg3 main_v9 main_v10 (addi : (⟨S800000, .i32⟩ : BufTy).Contents (Elt F) → (⟨S800000, .i32⟩ : BufTy).Contents (Elt F) → (⟨S800000, .i32⟩ : BufTy).Contents (Elt F)),
    ternary main_v8 main_v10 main_arg3 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v11 main_v12 (broadcastInDim S800000x1 ![0] bcast_S800000_S800000x1_0 : (⟨S800000, .i32⟩ : BufTy).Contents (Elt F) → (⟨S800000x1, .i32⟩ : BufTy).Contents (Elt F)),
    binary main_arg0 main_v12 main_v13 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- The second stretch, from the concatenation of the three pieces to the scatter-sum. -/
abbrev ops2 : List (HloOp τ sig (Elt F)) :=
  [ nary ![main_v6, main_v13, main_arg1] main_v14 (fun u => concatenate S800000x160 1 [⟨S800000x64, u 0⟩, ⟨S800000x64, u 1⟩, ⟨S800000x32, u 2⟩] concatenates_S800000x64_S800000x64_S800000x32_S800000x160_d1),
    unary main_arg4 main_v15 ((transpose S160x160 [1, 0] · transposes_S160x160_S160x160_1_0) : (⟨S160x160, .f32⟩ : BufTy).Contents (Elt F) → (⟨S160x160, .f32⟩ : BufTy).Contents (Elt F)),
    binary main_v14 main_v15 main_v16 ((fun l r => Host.dotGeneral dot_S800000x160_S160x160_S800000x160_1_0_0_1_n_n none l r) : (⟨S800000x160, .f32⟩ : BufTy).Contents (Elt F) → (⟨S160x160, .f32⟩ : BufTy).Contents (Elt F) → (⟨S800000x160, .f32⟩ : BufTy).Contents (Elt F)),
    unary main_arg5 main_v17 (broadcastInDim S1x160 ![1] bcast_S160_S1x160_1 : (⟨S160, .f32⟩ : BufTy).Contents (Elt F) → (⟨S1x160, .f32⟩ : BufTy).Contents (Elt F)),
    unary main_v17 main_v18 (broadcastInDim S800000x160 ![0, 1] bcast_S1x160_S800000x160_0_1 : (⟨S1x160, .f32⟩ : BufTy).Contents (Elt F) → (⟨S800000x160, .f32⟩ : BufTy).Contents (Elt F)),
    binary main_v16 main_v18 main_v19 (addf : (⟨S800000x160, .f32⟩ : BufTy).Contents (Elt F) → (⟨S800000x160, .f32⟩ : BufTy).Contents (Elt F) → (⟨S800000x160, .f32⟩ : BufTy).Contents (Elt F)),
    nullary main_cst (constant S_ .f32 0x3C23D70A#32),
    TRef.nullary main_call0.cst (constant S_ .f32 0x00000000#32),
    TRef.unary main_call0.cst main_call0.v0 (broadcastInDim S800000x160 ![] bcast_S_S800000x160),
    TRef.binary (.of main_v19 : TRef sig ⟨S800000x160, .f32⟩) main_call0.v0 main_call0.v1 (cmpf .oge),
    TRef.unary (.of main_cst : TRef sig ⟨S_, .f32⟩) main_call0.v2 id,
    TRef.unary main_call0.v2 main_call0.v3 (broadcastInDim S800000x160 ![] bcast_S_S800000x160),
    TRef.binary main_call0.v3 (.of main_v19 : TRef sig ⟨S800000x160, .f32⟩) main_call0.v4 mulf,
    TRef.ternary main_call0.v1 (.of main_v19 : TRef sig ⟨S800000x160, .f32⟩) main_call0.v4 main_call0.call0.v0 select,
    nullary main_cst_3 (constant S_ .f32 0x00000000#32),
    unary main_cst_3 main_v21 (broadcastInDim S50000x160 ![] bcast_S_S50000x160 : (⟨S_, .f32⟩ : BufTy).Contents (Elt F) → (⟨S50000x160, .f32⟩ : BufTy).Contents (Elt F)),
    unary main_arg3 main_v22 (broadcastInDim S800000x1 ![0] bcast_S800000_S800000x1_0 : (⟨S800000, .i32⟩ : BufTy).Contents (Elt F) → (⟨S800000x1, .i32⟩ : BufTy).Contents (Elt F)),
    ternary main_v21 main_v22 main_v20 main_v23 ((fun x i u => Host.scatterAdd scatter_S50000x160_S800000x1_S800000x160_1_0_0_1 x i u) : (⟨S50000x160, .f32⟩ : BufTy).Contents (Elt F) → (⟨S800000x1, .i32⟩ : BufTy).Contents (Elt F) → (⟨S800000x160, .f32⟩ : BufTy).Contents (Elt F) → (⟨S50000x160, .f32⟩ : BufTy).Contents (Elt F)) ]

/-- The third stretch, from the concatenation of the sums and the node rows to the result. -/
abbrev ops3 : List (HloOp τ sig (Elt F)) :=
  [ binary main_v23 main_arg0 main_v24 ((fun a b => concatenate S50000x224 1 [⟨S50000x160, a⟩, ⟨S50000x64, b⟩] concatenates_S50000x160_S50000x64_S50000x224_d1) : (⟨S50000x160, .f32⟩ : BufTy).Contents (Elt F) → (⟨S50000x64, .f32⟩ : BufTy).Contents (Elt F) → (⟨S50000x224, .f32⟩ : BufTy).Contents (Elt F)),
    unary main_arg6 main_v25 ((transpose S224x224 [1, 0] · transposes_S224x224_S224x224_1_0) : (⟨S224x224, .f32⟩ : BufTy).Contents (Elt F) → (⟨S224x224, .f32⟩ : BufTy).Contents (Elt F)),
    binary main_v24 main_v25 main_v26 ((fun l r => Host.dotGeneral dot_S50000x224_S224x224_S50000x224_1_0_0_1_n_n none l r) : (⟨S50000x224, .f32⟩ : BufTy).Contents (Elt F) → (⟨S224x224, .f32⟩ : BufTy).Contents (Elt F) → (⟨S50000x224, .f32⟩ : BufTy).Contents (Elt F)),
    unary main_arg7 main_v27 (broadcastInDim S1x224 ![1] bcast_S224_S1x224_1 : (⟨S224, .f32⟩ : BufTy).Contents (Elt F) → (⟨S1x224, .f32⟩ : BufTy).Contents (Elt F)),
    unary main_v27 main_v28 (broadcastInDim S50000x224 ![0, 1] bcast_S1x224_S50000x224_0_1 : (⟨S1x224, .f32⟩ : BufTy).Contents (Elt F) → (⟨S50000x224, .f32⟩ : BufTy).Contents (Elt F)),
    binary main_v26 main_v28 main_v29 (addf : (⟨S50000x224, .f32⟩ : BufTy).Contents (Elt F) → (⟨S50000x224, .f32⟩ : BufTy).Contents (Elt F) → (⟨S50000x224, .f32⟩ : BufTy).Contents (Elt F)),
    nullary main_cst_4 (constant S_ .f32 0x3C23D70A#32),
    TRef.nullary main_call1.cst (constant S_ .f32 0x00000000#32),
    TRef.unary main_call1.cst main_call1.v0 (broadcastInDim S50000x224 ![] bcast_S_S50000x224),
    TRef.binary (.of main_v29 : TRef sig ⟨S50000x224, .f32⟩) main_call1.v0 main_call1.v1 (cmpf .oge),
    TRef.unary (.of main_cst_4 : TRef sig ⟨S_, .f32⟩) main_call1.v2 id,
    TRef.unary main_call1.v2 main_call1.v3 (broadcastInDim S50000x224 ![] bcast_S_S50000x224),
    TRef.binary main_call1.v3 (.of main_v29 : TRef sig ⟨S50000x224, .f32⟩) main_call1.v4 mulf,
    TRef.ternary main_call1.v1 (.of main_v29 : TRef sig ⟨S50000x224, .f32⟩) main_call1.v4 main_call1.call0.v0 select ]

theorem ops_split : (ops : List (HloOp τ sig (Elt F))) = ops1 ++ (ops2 ++ ops3) := rfl

/-- Operations run one list after the other are their concatenation run as one. -/
theorem after_app {τ' : Topo} {sig' : RefSig} {Val : EltTy → Type} :
    ∀ (l₁ l₂ : List (HloOp τ' sig' Val)) (W : Valuation τ' sig' Val), after (l₁ ++ l₂) W = after l₂ (after l₁ W)
  | [], _, _ => rfl
  | op :: l₁, l₂, W => by rw [List.cons_append, after_cons, after_cons, after_app l₁ l₂]

-- the gathers, the scatter-sum, the concatenations and the transpositions stay folded: no equation below looks inside them
attribute [local irreducible] Host.gather Host.scatterAdd concatenate transpose

/-- After the first stretch the first gather's buffer holds the node rows at the normalised source words. -/
theorem c1_v6 (W : Valuation τ sig (Elt F)) :
    after ops1 W (Proc.devRef .tc main_v6) = Host.gather gather_S50000x64_S800000x1_S800000x64_1_0_n_n_0_1_164 (W (Proc.devRef .tc main_arg0)) (startCol (W (Proc.devRef .tc main_arg2))) := by
  after_results_simp
  rfl

/-- After the first stretch the second gather's buffer holds the node rows at the normalised destination words. -/
theorem c1_v13 (W : Valuation τ sig (Elt F)) :
    after ops1 W (Proc.devRef .tc main_v13) = Host.gather gather_S50000x64_S800000x1_S800000x64_1_0_n_n_0_1_164 (W (Proc.devRef .tc main_arg0)) (startCol (W (Proc.devRef .tc main_arg3))) := by
  after_results_simp
  rfl

/-! The first stretch writes none of the buffers the later stretches read. -/

theorem c1_main_arg0 (W : Valuation τ sig (Elt F)) : after ops1 W (Proc.devRef .tc main_arg0) = W (Proc.devRef .tc main_arg0) := by
  after_results_simp
theorem c1_main_arg1 (W : Valuation τ sig (Elt F)) : after ops1 W (Proc.devRef .tc main_arg1) = W (Proc.devRef .tc main_arg1) := by
  after_results_simp
theorem c1_main_arg3 (W : Valuation τ sig (Elt F)) : after ops1 W (Proc.devRef .tc main_arg3) = W (Proc.devRef .tc main_arg3) := by
  after_results_simp
theorem c1_main_arg4 (W : Valuation τ sig (Elt F)) : after ops1 W (Proc.devRef .tc main_arg4) = W (Proc.devRef .tc main_arg4) := by
  after_results_simp
theorem c1_main_arg5 (W : Valuation τ sig (Elt F)) : after ops1 W (Proc.devRef .tc main_arg5) = W (Proc.devRef .tc main_arg5) := by
  after_results_simp
theorem c1_main_arg6 (W : Valuation τ sig (Elt F)) : after ops1 W (Proc.devRef .tc main_arg6) = W (Proc.devRef .tc main_arg6) := by
  after_results_simp
theorem c1_main_arg7 (W : Valuation τ sig (Elt F)) : after ops1 W (Proc.devRef .tc main_arg7) = W (Proc.devRef .tc main_arg7) := by
  after_results_simp

/-- After the second stretch the scatter's buffer holds the sum, into their destination nodes, of leaky_relu of the
    concatenated pieces against the transposed weight plus the bias — over whatever the three pieces' buffers held. -/
theorem c2_v23 (W : Valuation τ sig (Elt F)) :
    after ops2 W (Proc.devRef .tc main_v23)
      = refSum (W (Proc.devRef .tc main_arg3))
          (lreluE
            (addf
              (Host.dotGeneral dot_S800000x160_S160x160_S800000x160_1_0_0_1_n_n none
                (concatenate S800000x160 1
                  [⟨S800000x64, (W (Proc.devRef .tc main_v6))⟩, ⟨S800000x64, (W (Proc.devRef .tc main_v13))⟩, ⟨S800000x32, (W (Proc.devRef .tc main_arg1))⟩]
                  concatenates_S800000x64_S800000x64_S800000x32_S800000x160_d1)
                (transpose S160x160 [1, 0] (W (Proc.devRef .tc main_arg4)) transposes_S160x160_S160x160_1_0))
              (broadcastInDim S800000x160 ![0, 1] bcast_S1x160_S800000x160_0_1 (broadcastInDim S1x160 ![1] bcast_S160_S1x160_1 (W (Proc.devRef .tc main_arg5)))))
            (constant S_ .f32 0x3C23D70A#32)) := by
  after_results_simp
  rfl

/-! The second stretch writes none of the arguments the third reads. -/

theorem c2_main_arg0 (W : Valuation τ sig (Elt F)) : after ops2 W (Proc.devRef .tc main_arg0) = W (Proc.devRef .tc main_arg0) := by
  after_results_simp
theorem c2_main_arg6 (W : Valuation τ sig (Elt F)) : after ops2 W (Proc.devRef .tc main_arg6) = W (Proc.devRef .tc main_arg6) := by
  after_results_simp
theorem c2_main_arg7 (W : Valuation τ sig (Elt F)) : after ops2 W (Proc.devRef .tc main_arg7) = W (Proc.devRef .tc main_arg7) := by
  after_results_simp

/-- After the third stretch the result buffer holds leaky_relu of [sums | node rows] against the transposed weight plus
    the bias — over whatever the sums' buffer held. -/
theorem c3_v30 (W : Valuation τ sig (Elt F)) :
    after ops3 W (Proc.devRef .tc main_v30)
      = lreluN
          (addf
            (Host.dotGeneral dot_S50000x224_S224x224_S50000x224_1_0_0_1_n_n none
              (concatenate S50000x224 1 [⟨S50000x160, (W (Proc.devRef .tc main_v23))⟩, ⟨S50000x64, (W (Proc.devRef .tc main_arg0))⟩]
                concatenates_S50000x160_S50000x64_S50000x224_d1)
              (transpose S224x224 [1, 0] (W (Proc.devRef .tc main_arg6)) transposes_S224x224_S224x224_1_0))
            (broadcastInDim S50000x224 ![0, 1] bcast_S1x224_S50000x224_0_1 (broadcastInDim S1x224 ![1] bcast_S224_S1x224_1 (W (Proc.devRef .tc main_arg7)))))
          (constant S_ .f32 0x3C23D70A#32) := by
  after_results_simp
  rfl

/-- The three stretches composed: the result buffer holds `refTerm` of the arguments. -/
theorem out_eq (V : Valuation τ sig (Elt F)) :
    after ops V (Proc.devRef .tc main_v30) = refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_split, after_app, after_app, c3_v30, c2_v23, c2_main_arg0, c2_main_arg6, c2_main_arg7, c1_v6, c1_v13,
    c1_main_arg0, c1_main_arg1, c1_main_arg3, c1_main_arg4, c1_main_arg5, c1_main_arg6, c1_main_arg7]
  rfl

/-- No operation writes an argument's buffer: each holds at the end what it held at the launch. -/
theorem keep_main_arg0 (V : Valuation τ sig (Elt F)) : after ops V (Proc.devRef .tc main_arg0) = V (Proc.devRef .tc main_arg0) := by
  after_results_simp
theorem keep_main_arg1 (V : Valuation τ sig (Elt F)) : after ops V (Proc.devRef .tc main_arg1) = V (Proc.devRef .tc main_arg1) := by
  after_results_simp
theorem keep_main_arg2 (V : Valuation τ sig (Elt F)) : after ops V (Proc.devRef .tc main_arg2) = V (Proc.devRef .tc main_arg2) := by
  after_results_simp
theorem keep_main_arg3 (V : Valuation τ sig (Elt F)) : after ops V (Proc.devRef .tc main_arg3) = V (Proc.devRef .tc main_arg3) := by
  after_results_simp
theorem keep_main_arg4 (V : Valuation τ sig (Elt F)) : after ops V (Proc.devRef .tc main_arg4) = V (Proc.devRef .tc main_arg4) := by
  after_results_simp
theorem keep_main_arg5 (V : Valuation τ sig (Elt F)) : after ops V (Proc.devRef .tc main_arg5) = V (Proc.devRef .tc main_arg5) := by
  after_results_simp
theorem keep_main_arg6 (V : Valuation τ sig (Elt F)) : after ops V (Proc.devRef .tc main_arg6) = V (Proc.devRef .tc main_arg6) := by
  after_results_simp
theorem keep_main_arg7 (V : Valuation τ sig (Elt F)) : after ops V (Proc.devRef .tc main_arg7) = V (Proc.devRef .tc main_arg7) := by
  after_results_simp

/-- On every device, from any memory with zero counters: @main terminates with the result at `refTerm` of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
        = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v30).trans (out_eq _),
      (h c main_arg0).trans (keep_main_arg0 _),
      (h c main_arg1).trans (keep_main_arg1 _),
      (h c main_arg2).trans (keep_main_arg2 _),
      (h c main_arg3).trans (keep_main_arg3 _),
      (h c main_arg4).trans (keep_main_arg4 _),
      (h c main_arg5).trans (keep_main_arg5 _),
      (h c main_arg6).trans (keep_main_arg6 _),
      (h c main_arg7).trans (keep_main_arg7 _)⟩)
    (run_seq scopedRefs_eq scopedSems_eq defs main (fun _ => ops) main_eq (fun _ => ops_sub) m ρ)

end Cert.ReferenceIdeal.RunV

end
-- ==== Proof.RefRead.lean ====
/-
  The plain program's term read entry by entry at the extended reals: each gather is the clamped take, each
  concatenation against a transposed weight is the sum over the whole contracted axis, and the callee's leaky_relu is
  `leaky`: the term is `outR`.
-/
import proofs.«417945_j39470749450525_2_alg».proof.Proof.RefTerm
import proofs.«417945_j39470749450525_2_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

open scoped BigOperators

namespace Cert.ReferenceIdeal.RefRead

open Cert.ReferenceIdeal Cert.ReferenceIdeal.Gen Cert.ReferenceIdeal.RunV Cert.Mpnn
open Idealize.ShloMosaic Idealize.ShloMosaic.ValueIdx

/-! ## The start column

The start indices of a gather are the index words normalised (w + 50000 where w < 0) and laid as a column. -/

/-- A word vector laid as an [800000, 1] column reads, at (e, 0), the vector at e. -/
theorem col_apply (v : IVec S800000 32) (j : S800000x1.Idx) :
    broadcastInDim S800000x1 ![0] bcast_S800000_S800000x1_0 v j = v (ix1 (j 0)) := by
  simp only [broadcastInDim]
  congr 1
  funext a
  match a with
  | ⟨0, _⟩ =>
    apply Fin.ext
    split
    · next h1 => change (800000 : Nat) = 1 at h1; omega
    · rfl

/-- The start column at row e is the normalised word. -/
theorem startCol_apply (idx : IVec S800000 32) (j : S800000x1.Idx) :
    startCol idx j = normIdx (idx (ix1 (j 0))) := by
  unfold startCol
  rw [col_apply]
  rfl

/-! ## The product at an entry

With one contracted axis the contraction index is its one coordinate: the left operand is read at (row, k), the
right one at (k, column). -/

theorem lhsE_0 (i : S800000x160.Idx) (q : dot_S800000x160_S160x160_S800000x160_1_0_0_1_n_n.contr.Idx) :
    (dot_S800000x160_S160x160_S800000x160_1_0_0_1_n_n.lhsIdx i q 0).val = (i 0).val := by
  unfold DotDims.lhsIdx
  rw [dif_neg (show ¬(0 : Fin S800000x160.rank) ∈ dot_S800000x160_S160x160_S800000x160_1_0_0_1_n_n.lhsBatch by decide),
    dif_pos (show (0 : Fin S800000x160.rank) ∈ dot_S800000x160_S160x160_S800000x160_1_0_0_1_n_n.lhsNonContracting by decide)]
  rfl
theorem lhsE_1 (i : S800000x160.Idx) (q : dot_S800000x160_S160x160_S800000x160_1_0_0_1_n_n.contr.Idx) :
    (dot_S800000x160_S160x160_S800000x160_1_0_0_1_n_n.lhsIdx i q 1).val = (q ⟨0, by decide⟩).val :=
  dot_S800000x160_S160x160_S800000x160_1_0_0_1_n_n.lhsIdx_val_of_single rfl i q
theorem rhsE_0 (i : S800000x160.Idx) (q : dot_S800000x160_S160x160_S800000x160_1_0_0_1_n_n.contr.Idx) :
    (dot_S800000x160_S160x160_S800000x160_1_0_0_1_n_n.rhsIdx i q 0).val = (q ⟨0, by decide⟩).val :=
  dot_S800000x160_S160x160_S800000x160_1_0_0_1_n_n.rhsIdx_val_of_single rfl i q
theorem rhsE_1 (i : S800000x160.Idx) (q : dot_S800000x160_S160x160_S800000x160_1_0_0_1_n_n.contr.Idx) :
    (dot_S800000x160_S160x160_S800000x160_1_0_0_1_n_n.rhsIdx i q 1).val = (i 1).val := by
  unfold DotDims.rhsIdx
  rw [dif_neg (show ¬(1 : Fin S160x160.rank) ∈ dot_S800000x160_S160x160_S800000x160_1_0_0_1_n_n.rhsBatch by decide),
    dif_pos (show (1 : Fin S160x160.rank) ∈ dot_S800000x160_S160x160_S800000x160_1_0_0_1_n_n.rhsNonContracting by decide)]
  rfl

/-- The product at an entry: the sum over the whole contracted axis of row (i 0) of the left operand against column
    (i 1) of the right one. -/
theorem dotE_apply (L : FVec Ideal S800000x160 .f32) (R : FVec Ideal S160x160 .f32) (i : S800000x160.Idx) :
    Host.dotGeneral dot_S800000x160_S160x160_S800000x160_1_0_0_1_n_n none L R i = ∑ k : Fin 160, L (ix2 (i 0) k) * R (ix2 k (i 1)) := by
  simp only [Host.dotGeneral]
  rw [Ideal.dotGeneral_apply, ← Equiv.sum_comp (ValueIdx.contrEquiv1 dot_S800000x160_S160x160_S800000x160_1_0_0_1_n_n 160 rfl rfl).symm]
  refine Finset.sum_congr rfl fun k _ => ?_
  have hk := ValueIdx.contrEquiv1_symm_val dot_S800000x160_S160x160_S800000x160_1_0_0_1_n_n 160 rfl rfl k
  have el : dot_S800000x160_S160x160_S800000x160_1_0_0_1_n_n.lhsIdx i ((ValueIdx.contrEquiv1 dot_S800000x160_S160x160_S800000x160_1_0_0_1_n_n 160 rfl rfl).symm k) = ix2 (i 0) k := funext fun a => Fin.ext (by
    match a with
    | ⟨0, _⟩ => exact lhsE_0 _ _
    | ⟨1, _⟩ => exact (lhsE_1 _ _).trans hk)
  have er : dot_S800000x160_S160x160_S800000x160_1_0_0_1_n_n.rhsIdx i ((ValueIdx.contrEquiv1 dot_S800000x160_S160x160_S800000x160_1_0_0_1_n_n 160 rfl rfl).symm k) = ix2 k (i 1) := funext fun a => Fin.ext (by
    match a with
    | ⟨0, _⟩ => exact (rhsE_0 _ _).trans hk
    | ⟨1, _⟩ => exact rhsE_1 _ _)
  rw [el, er]
  rfl

theorem lhsN_0 (i : S50000x224.Idx) (q : dot_S50000x224_S224x224_S50000x224_1_0_0_1_n_n.contr.Idx) :
    (dot_S50000x224_S224x224_S50000x224_1_0_0_1_n_n.lhsIdx i q 0).val = (i 0).val := by
  unfold DotDims.lhsIdx
  rw [dif_neg (show ¬(0 : Fin S50000x224.rank) ∈ dot_S50000x224_S224x224_S50000x224_1_0_0_1_n_n.lhsBatch by decide),
    dif_pos (show (0 : Fin S50000x224.rank) ∈ dot_S50000x224_S224x224_S50000x224_1_0_0_1_n_n.lhsNonContracting by decide)]
  rfl
theorem lhsN_1 (i : S50000x224.Idx) (q : dot_S50000x224_S224x224_S50000x224_1_0_0_1_n_n.contr.Idx) :
    (dot_S50000x224_S224x224_S50000x224_1_0_0_1_n_n.lhsIdx i q 1).val = (q ⟨0, by decide⟩).val :=
  dot_S50000x224_S224x224_S50000x224_1_0_0_1_n_n.lhsIdx_val_of_single rfl i q
theorem rhsN_0 (i : S50000x224.Idx) (q : dot_S50000x224_S224x224_S50000x224_1_0_0_1_n_n.contr.Idx) :
    (dot_S50000x224_S224x224_S50000x224_1_0_0_1_n_n.rhsIdx i q 0).val = (q ⟨0, by decide⟩).val :=
  dot_S50000x224_S224x224_S50000x224_1_0_0_1_n_n.rhsIdx_val_of_single rfl i q
theorem rhsN_1 (i : S50000x224.Idx) (q : dot_S50000x224_S224x224_S50000x224_1_0_0_1_n_n.contr.Idx) :
    (dot_S50000x224_S224x224_S50000x224_1_0_0_1_n_n.rhsIdx i q 1).val = (i 1).val := by
  unfold DotDims.rhsIdx
  rw [dif_neg (show ¬(1 : Fin S224x224.rank) ∈ dot_S50000x224_S224x224_S50000x224_1_0_0_1_n_n.rhsBatch by decide),
    dif_pos (show (1 : Fin S224x224.rank) ∈ dot_S50000x224_S224x224_S50000x224_1_0_0_1_n_n.rhsNonContracting by decide)]
  rfl

/-- The product at an entry: the sum over the whole contracted axis of row (i 0) of the left operand against column
    (i 1) of the right one. -/
theorem dotN_apply (L : FVec Ideal S50000x224 .f32) (R : FVec Ideal S224x224 .f32) (i : S50000x224.Idx) :
    Host.dotGeneral dot_S50000x224_S224x224_S50000x224_1_0_0_1_n_n none L R i = ∑ k : Fin 224, L (ix2 (i 0) k) * R (ix2 k (i 1)) := by
  simp only [Host.dotGeneral]
  rw [Ideal.dotGeneral_apply, ← Equiv.sum_comp (ValueIdx.contrEquiv1 dot_S50000x224_S224x224_S50000x224_1_0_0_1_n_n 224 rfl rfl).symm]
  refine Finset.sum_congr rfl fun k _ => ?_
  have hk := ValueIdx.contrEquiv1_symm_val dot_S50000x224_S224x224_S50000x224_1_0_0_1_n_n 224 rfl rfl k
  have el : dot_S50000x224_S224x224_S50000x224_1_0_0_1_n_n.lhsIdx i ((ValueIdx.contrEquiv1 dot_S50000x224_S224x224_S50000x224_1_0_0_1_n_n 224 rfl rfl).symm k) = ix2 (i 0) k := funext fun a => Fin.ext (by
    match a with
    | ⟨0, _⟩ => exact lhsN_0 _ _
    | ⟨1, _⟩ => exact (lhsN_1 _ _).trans hk)
  have er : dot_S50000x224_S224x224_S50000x224_1_0_0_1_n_n.rhsIdx i ((ValueIdx.contrEquiv1 dot_S50000x224_S224x224_S50000x224_1_0_0_1_n_n 224 rfl rfl).symm k) = ix2 k (i 1) := funext fun a => Fin.ext (by
    match a with
    | ⟨0, _⟩ => exact (rhsN_0 _ _).trans hk
    | ⟨1, _⟩ => exact rhsN_1 _ _)
  rw [el, er]
  rfl

/-! ## Concatenations, biases and leaky_relu at an entry

A concatenation along the second axis reads the piece whose span holds the column; a bias row is laid down every
row; the callee's select on x ≥ 0 between x and slope · x is `leaky`. -/

/-- [a | b | c] along the second axis, entry by entry. -/
theorem cat3_eq (a b : FVec Ideal S800000x64 .f32) (c : FVec Ideal S800000x32 .f32) :
    concatenate S800000x160 1 [⟨S800000x64, a⟩, ⟨S800000x64, b⟩, ⟨S800000x32, c⟩]
      concatenates_S800000x64_S800000x64_S800000x32_S800000x160_d1 = cat3 a b c := by
  funext i
  unfold cat3
  by_cases h : (i 1).val < 64
  · rw [dif_pos h]
    exact concatenate_apply_piece 1 _ _ i 0 (by show (0 : Nat) < 3; omega) S800000x64 a rfl rfl 0 rfl _
      (fun b hb => match b with | ⟨0, _⟩ => rfl | ⟨1, _⟩ => absurd (Fin.ext rfl) hb) (Nat.zero_add _)
  · rw [dif_neg h]
    by_cases h' : (i 1).val < 128
    · rw [dif_pos h']
      exact concatenate_apply_piece 1 _ _ i 1 (by show (1 : Nat) < 3; omega) S800000x64 b rfl rfl 64 rfl _
        (fun b hb => match b with | ⟨0, _⟩ => rfl | ⟨1, _⟩ => absurd (Fin.ext rfl) hb)
        (by show 64 + ((i 1).val - 64) = (i 1).val; omega)
    · rw [dif_neg h']
      exact concatenate_apply_piece 1 _ _ i 2 (by show (2 : Nat) < 3; omega) S800000x32 c rfl rfl 128 rfl _
        (fun b hb => match b with | ⟨0, _⟩ => rfl | ⟨1, _⟩ => absurd (Fin.ext rfl) hb)
        (by show 128 + ((i 1).val - 128) = (i 1).val; omega)

/-- [a | b] along the second axis, entry by entry. -/
theorem cat2_eq (a : FVec Ideal S50000x160 .f32) (b : FVec Ideal S50000x64 .f32) :
    concatenate S50000x224 1 [⟨S50000x160, a⟩, ⟨S50000x64, b⟩]
      concatenates_S50000x160_S50000x64_S50000x224_d1 = cat2 a b := by
  funext i
  unfold cat2
  by_cases h : (i 1).val < 160
  · rw [dif_pos h]
    exact concatenate_apply_piece 1 _ _ i 0 (by show (0 : Nat) < 2; omega) S50000x160 a rfl rfl 0 rfl _
      (fun b hb => match b with | ⟨0, _⟩ => rfl | ⟨1, _⟩ => absurd (Fin.ext rfl) hb) (Nat.zero_add _)
  · rw [dif_neg h]
    exact concatenate_apply_piece 1 _ _ i 1 (by show (1 : Nat) < 2; omega) S50000x64 b rfl rfl 160 rfl _
      (fun b hb => match b with | ⟨0, _⟩ => rfl | ⟨1, _⟩ => absurd (Fin.ext rfl) hb)
      (by show 160 + ((i 1).val - 160) = (i 1).val; omega)

/-- The message bias, a row laid down every row: entry (e, j) is b[j]. -/
theorem biasE_apply (bm : FVec Ideal S160 .f32) (i : S800000x160.Idx) :
    broadcastInDim S800000x160 ![0, 1] bcast_S1x160_S800000x160_0_1 (broadcastInDim S1x160 ![1] bcast_S160_S1x160_1 bm) i
      = bm (ix1 (i 1)) := by
  simp only [broadcastInDim]
  congr 1
  funext a
  match a with
  | ⟨0, _⟩ =>
    apply Fin.ext
    split
    · next h1 => change (160 : Nat) = 1 at h1; omega
    · split
      · next h2 => change (160 : Nat) = 1 at h2; omega
      · rfl

/-- The hidden bias, a row laid down every row: entry (n, j) is b[j]. -/
theorem biasN_apply (bh : FVec Ideal S224 .f32) (i : S50000x224.Idx) :
    broadcastInDim S50000x224 ![0, 1] bcast_S1x224_S50000x224_0_1 (broadcastInDim S1x224 ![1] bcast_S224_S1x224_1 bh) i
      = bh (ix1 (i 1)) := by
  simp only [broadcastInDim]
  congr 1
  funext a
  match a with
  | ⟨0, _⟩ =>
    apply Fin.ext
    split
    · next h1 => change (224 : Nat) = 1 at h1; omega
    · split
      · next h2 => change (224 : Nat) = 1 at h2; omega
      · rfl

/-- leaky_relu as the callee spells it, at an entry of the message array. -/
theorem lreluE_apply (x : FVec Ideal S800000x160 .f32) (i : S800000x160.Idx) :
    lreluE x (constant S_ .f32 0x3C23D70A#32) i = leaky (x i) := rfl

/-- leaky_relu as the callee spells it, at an entry of the output array. -/
theorem lreluN_apply (x : FVec Ideal S50000x224 .f32) (i : S50000x224.Idx) :
    lreluN x (constant S_ .f32 0x3C23D70A#32) i = leaky (x i) := rfl

/-! ## The gather

Row e of the result is the table's row at start word e read signed and clamped into [0, 49999]: axis 0 is collapsed
and start-indexed (its offset coordinate is 0), axis 1 is the one offset axis (its start is 0). -/

local notation "G" => gather_S50000x64_S800000x1_S800000x64_1_0_n_n_0_1_164

/-- A node gather at the normalised words is the clamped take. -/
theorem gather_eq (hn : FVec Ideal S50000x64 .f32) (idx : IVec S800000 32) :
    Host.gather gather_S50000x64_S800000x1_S800000x64_1_0_n_n_0_1_164 hn (startCol idx) = takeClamp hn idx := by
  funext j
  unfold Host.gather takeClamp
  congr 1
  funext a
  match a with
  | ⟨0, _⟩ =>
    apply Fin.ext
    show GatherDims.start G j (startCol idx) 0 + GatherDims.batchCoord G j 0 + GatherDims.offCoord G j 0
      = min (normIdx (idx (ix1 (j 0)))).toInt.toNat 49999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap G from List.mem_singleton.mpr rfl)]
    rw [startCol_apply]
    have hsi : ∀ c, GatherDims.siIdx G j c 0 = j 0 := by
      intro c
      unfold GatherDims.siIdx
      rw [dif_neg (by decide)]
      exact Fin.ext rfl
    rw [hsi]
    rfl
  | ⟨1, _⟩ =>
    apply Fin.ext
    show GatherDims.start G j (startCol idx) 1 + GatherDims.batchCoord G j 1 + GatherDims.offCoord G j 1 = (j 1).val
    rw [GatherDims.batchCoord_eq_zero _ _ _ List.not_mem_nil]
    unfold GatherDims.start
    rw [dif_neg (show ¬ (1 : Fin 2) ∈ GatherDims.startIndexMap G by decide)]
    unfold GatherDims.offCoord
    rw [dif_pos (show (1 : Fin 2) ∈ GatherDims.sKept G by decide)]
    simp only [Nat.zero_add]
    rfl

/-- The scatter-sum from zeros is `segSum`. -/
theorem refSum_eq (dst : IVec S800000 32) (msg : FVec Ideal S800000x160 .f32) : refSum (F := Ideal) dst msg = segSum dst msg := by
  unfold refSum segSum Host.scatterAdd
  rw [Ideal.hostScatterAdd_def]
  have h2 : broadcastInDim S800000x1 ![0] bcast_S800000_S800000x1_0 dst = fun i => dst (ix1 (i 0)) := funext (col_apply dst)
  rw [h2]
  rfl

/-- The messages, entry by entry. -/
theorem refMsg_eq (hn : FVec Ideal S50000x64 .f32) (he : FVec Ideal S800000x32 .f32) (src dst : IVec S800000 32)
    (Wm : FVec Ideal S160x160 .f32) (bm : FVec Ideal S160 .f32) :
    refMsg (F := Ideal) hn he src dst Wm bm = msgR hn he src dst Wm bm := by
  funext i
  unfold refMsg msgR
  rw [lreluE_apply, addf_apply, dotE_apply, biasE_apply, gather_eq, gather_eq, cat3_eq]
  refine congrArg (fun s => leaky (s + bm (ix1 (i 1)))) (Finset.sum_congr rfl fun k _ => ?_)
  exact congrArg (HMul.hMul _) (transpose_ix2_apply Wm _ k (i 1))

/-- The result, entry by entry. -/
theorem refTerm_eq (hn : FVec Ideal S50000x64 .f32) (he : FVec Ideal S800000x32 .f32) (src dst : IVec S800000 32)
    (Wm : FVec Ideal S160x160 .f32) (bm : FVec Ideal S160 .f32) (Wh : FVec Ideal S224x224 .f32) (bh : FVec Ideal S224 .f32) :
    refTerm (F := Ideal) hn he src dst Wm bm Wh bh = outR hn he src dst Wm bm Wh bh := by
  funext i
  unfold refTerm outR
  rw [lreluN_apply, addf_apply, dotN_apply, biasN_apply, refMsg_eq, refSum_eq, cat2_eq]
  refine congrArg (fun s => leaky (s + bh (ix1 (i 1)))) (Finset.sum_congr rfl fun k _ => ?_)
  exact congrArg (HMul.hMul _) (transpose_ix2_apply Wh _ k (i 1))

end Cert.ReferenceIdeal.RefRead

end
-- ==== Proof.BridgeSums.lean ====
/-
  The two arrangements of each product agree: a sum over the 160 (or 224) places of a concatenated row against a column
  of the weight is the sum of the pieces' sums against the matching row blocks of the transposed weight. Only
  commutativity and associativity of + are used, which hold on the extended reals, so no finiteness is needed.
-/
import proofs.«417945_j39470749450525_2_alg».proof.Proof.Spec
import Mathlib.Algebra.BigOperators.Fin

noncomputable section

open scoped BigOperators

namespace Cert.Mpnn

open Idealize.ShloMosaic Idealize.ShloMosaic.ValueIdx

/-- A sum over `n = p + q` places is the sum over the first `p` places plus the sum over the last `q`, the places
    named by their values (`k` and `k + p`). -/
theorem sum_fin_split2 {M : Type*} [AddCommMonoid M] (p q n : Nat) (h : n = p + q) (f : Fin n → M) :
    ∑ k : Fin n, f k
      = (∑ k : Fin p, f ⟨k.val, by have := k.isLt; omega⟩) + ∑ k : Fin q, f ⟨k.val + p, by have := k.isLt; omega⟩ := by
  subst h
  rw [Fin.sum_univ_add]
  congr 1
  refine Finset.sum_congr rfl fun k _ => congrArg f (Fin.ext ?_)
  simp only [Fin.coe_natAdd]
  omega

/-- A sum over `n = p + q + r` places is the sum of the sums over the three consecutive runs of `p`, `q` and `r` places,
    the places named by their values (`k`, `k + p` and `k + (p + q)`). -/
theorem sum_fin_split3 {M : Type*} [AddCommMonoid M] (p q r n : Nat) (h : n = p + q + r) (f : Fin n → M) :
    ∑ k : Fin n, f k
      = ((∑ k : Fin p, f ⟨k.val, by have := k.isLt; omega⟩) + ∑ k : Fin q, f ⟨k.val + p, by have := k.isLt; omega⟩)
          + ∑ k : Fin r, f ⟨k.val + (p + q), by have := k.isLt; omega⟩ := by
  rw [sum_fin_split2 (p + q) r n h f,
    sum_fin_split2 p q (p + q) rfl (fun k : Fin (p + q) => f ⟨k.val, by have := k.isLt; omega⟩)]

/-- The first 64 places of a concatenated row are the first piece's. -/
theorem cat3_fst (a b : Mat 800000 64) (c : Mat 800000 32) (e : Fin 800000) (k : Fin 160) (h : k.val < 64) :
    cat3 a b c (ix2 e k) = a (ix2 e ⟨k.val, h⟩) := by
  unfold cat3
  exact dif_pos h

/-- Places 64 to 127 of a concatenated row are the second piece's. -/
theorem cat3_snd (a b : Mat 800000 64) (c : Mat 800000 32) (e : Fin 800000) (k : Fin 160) (h : ¬ k.val < 64)
    (h' : k.val < 128) : cat3 a b c (ix2 e k) = b (ix2 e ⟨k.val - 64, by omega⟩) := by
  unfold cat3
  exact (dif_neg h).trans (dif_pos h')

/-- Places 128 to 159 of a concatenated row are the third piece's. -/
theorem cat3_thd (a b : Mat 800000 64) (c : Mat 800000 32) (e : Fin 800000) (k : Fin 160) (h : ¬ k.val < 64)
    (h' : ¬ k.val < 128) : cat3 a b c (ix2 e k) = c (ix2 e ⟨k.val - 128, by have := k.isLt; omega⟩) := by
  unfold cat3
  exact (dif_neg h).trans (dif_neg h')

/-- The first 160 places of a concatenated row are the first piece's. -/
theorem cat2_fst (a : Mat 50000 160) (b : Mat 50000 64) (e : Fin 50000) (k : Fin 224) (h : k.val < 160) :
    cat2 a b (ix2 e k) = a (ix2 e ⟨k.val, h⟩) := by
  unfold cat2
  exact dif_pos h

/-- Places 160 to 223 of a concatenated row are the second piece's. -/
theorem cat2_snd (a : Mat 50000 160) (b : Mat 50000 64) (e : Fin 50000) (k : Fin 224) (h : ¬ k.val < 160) :
    cat2 a b (ix2 e k) = b (ix2 e ⟨k.val - 160, by have := k.isLt; omega⟩) := by
  unfold cat2
  exact dif_neg h

/-- The edge stage's three partial products are the one product of the concatenated row. -/
theorem msgOf_eq (a b : Mat 800000 64) (c : Mat 800000 32) (Wm : Mat 160 160) (bm : Row 160) :
    msgOf a b c (wA Wm) (wB Wm) (wC Wm) bm
      = fun i => leaky ((∑ k : Fin 160, cat3 a b c (ix2 (i 0) k) * Wm (ix2 (i 1) k)) + bm (ix1 (i 1))) := by
  funext i
  unfold msgOf
  refine congrArg leaky (congrArg (· + bm (ix1 (i 1))) ?_)
  rw [sum_fin_split3 64 64 32 160 rfl (fun k : Fin 160 => cat3 a b c (ix2 (i 0) k) * Wm (ix2 (i 1) k))]
  refine congrArg₂ (· + ·) (congrArg₂ (· + ·) ?_ ?_) ?_
  · refine Finset.sum_congr rfl fun k _ => ?_
    have hk := k.isLt
    rw [cat3_fst a b c (i 0) ⟨k.val, by omega⟩ hk]
    rfl
  · refine Finset.sum_congr rfl fun k _ => ?_
    have hk := k.isLt
    rw [cat3_snd a b c (i 0) ⟨k.val + 64, by omega⟩ (by simp) (by simp; omega)]
    refine congrArg₂ (· * ·) (congrArg b (congrArg (ix2 (i 0)) (Fin.ext ?_))) rfl
    simp
  · refine Finset.sum_congr rfl fun k _ => ?_
    have hk := k.isLt
    rw [cat3_thd a b c (i 0) ⟨k.val + (64 + 64), by omega⟩ (by simp) (by simp)]
    refine congrArg₂ (· * ·) (congrArg c (congrArg (ix2 (i 0)) (Fin.ext ?_))) rfl
    simp

/-- The node stage's two partial products are the one product of the concatenated row. -/
theorem outOf_eq (ms : Mat 50000 160) (hn : Mat 50000 64) (Wh : Mat 224 224) (bh : Row 224) :
    outOf ms hn (wD Wh) (wE Wh) bh
      = fun i => leaky ((∑ k : Fin 224, cat2 ms hn (ix2 (i 0) k) * Wh (ix2 (i 1) k)) + bh (ix1 (i 1))) := by
  funext i
  unfold outOf
  refine congrArg leaky (congrArg (· + bh (ix1 (i 1))) ?_)
  rw [sum_fin_split2 160 64 224 rfl (fun k : Fin 224 => cat2 ms hn (ix2 (i 0) k) * Wh (ix2 (i 1) k))]
  refine congrArg₂ (· + ·) ?_ ?_
  · refine Finset.sum_congr rfl fun k _ => ?_
    have hk := k.isLt
    rw [cat2_fst ms hn (i 0) ⟨k.val, by omega⟩ hk]
    rfl
  · refine Finset.sum_congr rfl fun k _ => ?_
    have hk := k.isLt
    rw [cat2_snd ms hn (i 0) ⟨k.val + 160, by omega⟩ (by simp)]
    refine congrArg₂ (· * ·) (congrArg hn (congrArg (ix2 (i 0)) (Fin.ext ?_))) rfl
    simp

/-- A concatenated row depends on its pieces' rows only. -/
theorem cat3_congr_row (a a' b b' : Mat 800000 64) (c : Mat 800000 32) (e : Fin 800000)
    (ha : ∀ k : Fin 64, a (ix2 e k) = a' (ix2 e k)) (hb : ∀ k : Fin 64, b (ix2 e k) = b' (ix2 e k)) (k : Fin 160) :
    cat3 a b c (ix2 e k) = cat3 a' b' c (ix2 e k) := by
  by_cases h : k.val < 64
  · rw [cat3_fst a b c e k h, cat3_fst a' b' c e k h]
    exact ha _
  · by_cases h' : k.val < 128
    · rw [cat3_snd a b c e k h h', cat3_snd a' b' c e k h h']
      exact hb _
    · rw [cat3_thd a b c e k h h', cat3_thd a' b' c e k h h']

end Cert.Mpnn

end
-- ==== Proof.BridgeIdx.lean ====
/-
  Index words. Where the normalised word names a node the filling take and the clamped take read the same row; a word
  in [-50000, 50000) normalises into range, and so does a word in [0, 50000), which is its own normal form. The
  scatter-sum adds message row e only at the node its RAW word names, so two message arrays that agree on the rows whose
  word lies in [0, 50000) have the same sums.
-/
import proofs.«417945_j39470749450525_2_alg».proof.Proof.Spec
import Idealize.ShloMosaic.Lib.StableHlo.Predicate

noncomputable section

open scoped BigOperators

namespace Cert.Mpnn

open Idealize.ShloMosaic Idealize.ShloMosaic.ValueIdx

/-! ## The normal form of a word -/

/-- The signed test "w < 0" answers the bit 1 exactly when the word's signed value is negative. -/
theorem slt_zero_iff (w : BitVec 32) : IntOp.cmpi .slt w 0#32 = (1 : BitVec 1) ↔ w.toInt < 0 := by
  show BitVec.ofBool (w.slt 0#32) = 1#1 ↔ w.toInt < 0
  rw [StableHlo.Predicate.ofBool_eq_one_iff]
  simp [BitVec.slt]

/-- A negative word normalises to itself plus 50000. -/
theorem normIdx_neg (w : BitVec 32) (h : w.toInt < 0) : normIdx w = w + 50000#32 := by
  unfold normIdx Scalar.select IntOp.addi
  rw [if_pos ((slt_zero_iff w).2 h)]

/-- A non-negative word is its own normal form. -/
theorem normIdx_nonneg (w : BitVec 32) (h : 0 ≤ w.toInt) : normIdx w = w := by
  unfold normIdx Scalar.select
  rw [if_neg (fun hc => by have := (slt_zero_iff w).1 hc; omega)]

/-- Adding 50000 to a word in [-50000, 0) does not wrap: the signed value of the sum is the sum of the signed values,
    because it lies in [0, 50000), well inside the balanced residues modulo 2^32. -/
theorem toInt_add_wrap (w : BitVec 32) (h0 : -50000 ≤ w.toInt) (h1 : w.toInt < 0) :
    (w + 50000#32).toInt = w.toInt + 50000 := by
  rw [BitVec.toInt_add]
  have h5 : (50000#32 : BitVec 32).toInt = 50000 := by decide
  rw [h5, Int.bmod_def]
  omega

/-- A word in [-50000, 50000) normalises to a node. -/
theorem inRange_of_srcOk (w : BitVec 32) (h : srcOk w) : inRange w := by
  obtain ⟨h0, h1⟩ := h
  unfold inRange
  by_cases hneg : w.toInt < 0
  · rw [normIdx_neg w hneg, toInt_add_wrap w h0 hneg]
    omega
  · rw [normIdx_nonneg w (by omega)]
    omega

/-- A word in [0, 50000) normalises to a node. -/
theorem inRange_of_node (w : BitVec 32) (h0 : 0 ≤ w.toInt) (h1 : w.toInt < 50000) : inRange w := by
  unfold inRange
  rw [normIdx_nonneg w h0]
  omega

/-- In range, the two takes read the same row. -/
theorem takeFill_eq_takeClamp (hn : Mat 50000 64) (ids : Ids 800000) (e : Fin 800000) (k : Fin 64)
    (h : inRange (ids (ix1 e))) : takeFill hn ids (ix2 e k) = takeClamp hn ids (ix2 e k) := by
  show (if inRange (ids (ix1 e)) then hn (ix2 (gRow (ids (ix1 e))) k) else ⊥) = hn (ix2 (gRow (ids (ix1 e))) k)
  rw [if_pos h]

/-! ## Where the scatter lands an update row

  The scatter's dimension numbers send operand axis 0 to component 0 of the start index and make operand axis 0 an
  inserted (window-free) axis. So on axis 0 the landing coordinate of update element (e, c) is the signed value of the
  word of edge e, with no window offset; the update is kept only if that value lies inside the operand's 50000 rows. -/

/-- Operand axis 0 is inserted: no window coordinate is added on it. -/
theorem scat_window0 (j : (⟨2, ![800000, 160]⟩ : Shape).Idx) : scat.window j 0 = 0 := by
  unfold ScatterDims.window
  rw [dif_neg (by decide)]

/-- On operand axis 0 the start is the signed value of the word of the update element's edge. -/
theorem scat_start0 (dst : Ids 800000) (j : (⟨2, ![800000, 160]⟩ : Shape).Idx) :
    scat.start j (fun i => dst (ix1 (i 0))) 0 = (dst (ix1 (j 0))).toInt := by
  unfold ScatterDims.start
  rw [dif_pos (by decide)]
  rfl

/-- An update element that lands somewhere has its edge's raw word in [0, 50000). -/
theorem scat_lands (dst : Ids 800000) (j : (⟨2, ![800000, 160]⟩ : Shape).Idx) (i : (⟨2, ![50000, 160]⟩ : Shape).Idx)
    (h : scat.resultIdx? j (fun i => dst (ix1 (i 0))) = some i) :
    0 ≤ (dst (ix1 (j 0))).toInt ∧ (dst (ix1 (j 0))).toInt < 50000 := by
  unfold ScatterDims.resultIdx? at h
  split at h
  · rename_i hc
    have h0 := hc 0
    rw [scat_start0, scat_window0] at h0
    have hs : (⟨2, ![50000, 160]⟩ : Shape).size 0 = 50000 := rfl
    rw [hs] at h0
    omega
  · cases h

/-- The scatter-sum sees only the rows whose raw word names a node. -/
theorem segSum_congr (dst : Ids 800000) (x y : Mat 800000 160)
    (h : ∀ (e : Fin 800000) (j : Fin 160), 0 ≤ (dst (ix1 e)).toInt → (dst (ix1 e)).toInt < 50000 → x (ix2 e j) = y (ix2 e j)) :
    segSum dst x = segSum dst y := by
  funext i
  unfold segSum Ideal.hostScatterAdd
  refine congrArg _ ?_
  refine Finset.sum_congr rfl ?_
  intro j hj
  have hr := scat_lands dst j i (Finset.mem_filter.1 hj).2
  rw [eq_ix2 j]
  exact h (j 0) (j 1) hr.1 hr.2

end Cert.Mpnn

end
-- ==== Proof.Bridge.lean ====
/-
  The two programs compute one function where every source word lies in [-50000, 50000): edge by edge the messages
  agree wherever the destination word names a node (both takes then read the same rows, and the three partial products
  are the one product), those are the only messages the scatter-sum adds, and the node stage's two partial products are
  again the one product.
-/
import proofs.«417945_j39470749450525_2_alg».proof.Proof.BridgeSums
import proofs.«417945_j39470749450525_2_alg».proof.Proof.BridgeIdx

noncomputable section

open scoped BigOperators

namespace Cert.Mpnn

open Idealize.ShloMosaic Idealize.ShloMosaic.ValueIdx

theorem outK_eq_outR (hn : Mat 50000 64) (he : Mat 800000 32) (src dst : Ids 800000) (Wm : Mat 160 160) (bm : Row 160)
    (Wh : Mat 224 224) (bh : Row 224) (hsrc : ∀ e : Fin 800000, srcOk (src (ix1 e))) :
    outK hn he src dst Wm bm Wh bh = outR hn he src dst Wm bm Wh bh := by
  -- the summed messages agree: only rows whose destination word names a node are added, and there the rows agree
  have hseg : segSum dst (msgK hn he src dst Wm bm) = segSum dst (msgR hn he src dst Wm bm) := by
    apply segSum_congr
    intro e j h0 h1
    have hs : inRange (src (ix1 e)) := inRange_of_srcOk _ (hsrc e)
    have hd : inRange (dst (ix1 e)) := inRange_of_node _ h0 h1
    unfold msgK
    rw [msgOf_eq]
    show leaky ((∑ k : Fin 160, cat3 (takeFill hn src) (takeFill hn dst) he (ix2 e k) * Wm (ix2 j k)) + bm (ix1 j))
      = leaky ((∑ k : Fin 160, cat3 (takeClamp hn src) (takeClamp hn dst) he (ix2 e k) * Wm (ix2 j k)) + bm (ix1 j))
    refine congrArg leaky (congrArg (· + bm (ix1 j)) (Finset.sum_congr rfl fun k _ => congrArg (· * Wm (ix2 j k)) ?_))
    exact cat3_congr_row _ _ _ _ _ e (fun k => takeFill_eq_takeClamp hn src e k hs)
      (fun k => takeFill_eq_takeClamp hn dst e k hd) k
  unfold outK outR
  rw [outOf_eq, hseg]

end Cert.Mpnn

end
-- ==== Proof.PreRange.lean ====
/-
  What the precondition says of the source words: its last conjunct is the conjunction over all edges of
  -50000 ≤ src[e] and src[e] < 50000, compared as signed words.
-/
import proofs.«417945_j39470749450525_2_alg».proof.Defs
import proofs.«417945_j39470749450525_2_alg».proof.Proof.Gen.KernelIdeal
import proofs.«417945_j39470749450525_2_alg».proof.Proof.Gen.Pre_finite_inputs
import proofs.«417945_j39470749450525_2_alg».proof.Proof.Spec
import Idealize.ShloMosaic.Lib.ReduceAll
import Idealize.ShloMosaic.Lib.StableHlo.Predicate

noncomputable section

namespace Cert.Proof.PreRange

open Idealize.ShloMosaic Idealize.ShloMosaic.ValueIdx Idealize.SL.Sem Cert.Mpnn

/-- Under the precondition every source word lies in [-50000, 50000). -/
theorem src_ok (m : (ℓ : Loc Cert.KernelIdeal.nD Cert.KernelIdeal.τ Cert.KernelIdeal.sig) → Buf (Elt Ideal) ℓ)
    (h : Cert.Pre_KernelIdeal m) (c : Dev Cert.KernelIdeal.nD) (e : Fin 800000) :
    srcOk ((m ((c.tc : Thread Cert.KernelIdeal.nD Cert.KernelIdeal.τ).loc Cert.KernelIdeal.main_arg2)) (ix1 e)) := by
  have h0 := congrFun (h c) ValueIdx.ix0
  simp only [Cert.Pre_finite_inputs.fn, Cert.Pre_finite_inputs.fn_part1, Cert.Pre_finite_inputs.fn_part2] at h0
  -- the last conjunct: the conjunction over all edges
  obtain ⟨-, h1⟩ := IntOp.andi_eq_one.1 h0
  haveI : Subsingleton Cert.Pre_finite_inputs.S_.Idx := ⟨fun a b => funext fun d => d.elim0⟩
  have h2 := Host.reduce_andi_all _ _ _ _ _ h1 (ix1 e)
  -- at edge e: the two signed comparisons
  obtain ⟨h3, h4⟩ := IntOp.andi_eq_one.1 h2
  have h5 := IntOp.cmpi_sge.1 h3
  have h6 := IntOp.cmpi_slt.1 h4
  -- a broadcast scalar constant reads the constant
  have h5' : (4294917296#32 : BitVec 32).toInt
      ≤ ((m ((c.tc : Thread Cert.KernelIdeal.nD Cert.KernelIdeal.τ).loc Cert.KernelIdeal.main_arg2)) (ix1 e)).toInt := h5
  have h6' : ((m ((c.tc : Thread Cert.KernelIdeal.nD Cert.KernelIdeal.τ).loc Cert.KernelIdeal.main_arg2)) (ix1 e)).toInt
      < (50000#32 : BitVec 32).toInt := h6
  have e1 : (4294917296#32 : BitVec 32).toInt = -50000 := by decide
  have e2 : (50000#32 : BitVec 32).toInt = 50000 := by decide
  unfold srcOk
  omega

end Cert.Proof.PreRange

end
-- ==== Proof.lean ====
/-
  One layer of message passing over 50000 nodes and 800000 edges, two ways.

  Both programs form, for each edge e, the message leaky([h_n[src e] | h_n[dst e] | h_e[e]] . W_msg^T + b_msg), add the
  messages into their destination nodes, and return leaky([sum | h_n] . W_hid^T + b_hid). The tiled program multiplies
  each piece of a concatenated row against the matching row block of the transposed weight and adds the partial products;
  over the extended reals that is the one product of the whole row, since only the order and grouping of a finite sum
  change. It reads a node row through a take that fills an out-of-range row with the junk value, where the plain program
  clamps; the two agree on every edge whose normalised word names a node. For the source words that is the stated domain
  -50000 ≤ src < 50000, outside which the plain program itself indexes out of range. For the destination words nothing
  is assumed: the scatter-sum adds an edge's message only where the raw destination word names a node, and there the two
  destination rows agree, so the rows on which the two takes differ are rows neither sum ever reads.

  The frames are the generated ones; the tiled program's run names its result array as the last stage's write-backs,
  which the stage modules read as one function of the arguments (`outK`); the plain program's run names its result as
  the composed term of its operations, read entry by entry as `outR`; `outK = outR` on the stated domain.
-/
import proofs.«417945_j39470749450525_2_alg».proof.Defs
import proofs.«417945_j39470749450525_2_alg».proof.Proof.Gen.Kernel
import proofs.«417945_j39470749450525_2_alg».proof.Proof.Gen.Kernel.Skeleton
import proofs.«417945_j39470749450525_2_alg».proof.Proof.Gen.Kernel.Launch
import proofs.«417945_j39470749450525_2_alg».proof.Proof.Gen.Kernel.Points
import proofs.«417945_j39470749450525_2_alg».proof.Proof.Gen.Kernel.Frame
import proofs.«417945_j39470749450525_2_alg».proof.Proof.Gen.KernelIdeal
import proofs.«417945_j39470749450525_2_alg».proof.Proof.Gen.KernelIdeal.Skeleton
import proofs.«417945_j39470749450525_2_alg».proof.Proof.Gen.KernelIdeal.Launch
import proofs.«417945_j39470749450525_2_alg».proof.Proof.Gen.KernelIdeal.Points
import proofs.«417945_j39470749450525_2_alg».proof.Proof.Gen.KernelIdeal.Frame
import proofs.«417945_j39470749450525_2_alg».proof.Proof.Gen.ReferenceIdeal
import proofs.«417945_j39470749450525_2_alg».proof.Proof.Gen.Pre_finite_inputs
import proofs.«417945_j39470749450525_2_alg».proof.Proof.KRun
import proofs.«417945_j39470749450525_2_alg».proof.Proof.KValue
import proofs.«417945_j39470749450525_2_alg».proof.Proof.RefRun
import proofs.«417945_j39470749450525_2_alg».proof.Proof.RefRead
import proofs.«417945_j39470749450525_2_alg».proof.Proof.Bridge
import proofs.«417945_j39470749450525_2_alg».proof.Proof.PreRange
import Idealize.ShloMosaic.Adequacy
import Idealize.ShloMosaic.Init

noncomputable section

namespace Cert.Proof

open Idealize.ShloMosaic Idealize.SL.Sem Cert.Mpnn

theorem frame_k : Cert.frame_Kernel := fun m ρ _ => Cert.Kernel.Gen.frame m ρ

theorem frame_ki : Cert.frame_KernelIdeal := fun m ρ _ => Cert.KernelIdeal.Gen.frame m ρ

/-- The plain program's frame is its run with the result dropped. -/
theorem frame_ri : Cert.frame_ReferenceIdeal := fun m ρ _ =>
  (θ_run Cert.ReferenceIdeal.defs _ _).mono (fun _ h c => (h c).2) (Cert.ReferenceIdeal.RunV.run (F := Ideal) m ρ)

/-- The idealization rewrote no operation. -/
theorem preserves : Cert.preserves_Kernel_KernelIdeal := trivial

/-- Both runs end at one array: `outK` of the tiled program's arguments, which is `outR` of them on the stated domain
    of the source words, and the plain program's arguments are the same arrays. -/
theorem algebraic : Cert.algebraic_KernelIdeal_ReferenceIdeal := by
  intro m ρ m' ρ' hpre hagree
  refine ⟨fun c => outK (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Value.final m ρ c), (h c).2⟩)
      (Cert.KernelIdeal.RunV.run (F := Ideal) m ρ)
  · refine (θ_run Cert.ReferenceIdeal.defs _ _).mono (fun r h c => ⟨?_, (h c).2⟩)
      (Cert.ReferenceIdeal.RunV.run (F := Ideal) m' ρ')
    rw [(h c).1, Cert.ReferenceIdeal.RefRead.refTerm_eq, (hagree c).1, (hagree c).2.1, (hagree c).2.2.1,
      (hagree c).2.2.2.1, (hagree c).2.2.2.2.1, (hagree c).2.2.2.2.2.1, (hagree c).2.2.2.2.2.2.1,
      (hagree c).2.2.2.2.2.2.2]
    exact (outK_eq_outR _ _ _ _ _ _ _ _ (fun e => Cert.Proof.PreRange.src_ok m hpre c e)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
